-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg9 : FVec F S128x40 .f32) (main_arg10 : FVec F S40 .f32) (main_v33 : IVec S_ 1) : IVec S_ 1 :=
  let main_v34 : FVec F S128x40 .f32 := Host.absf main_arg9
  let main_cst_12 : FVec F S_ .f32 := constant S_ .f32 0x7F800000#32
  let main_v35 : FVec F S128x40 .f32 := broadcastInDim S128x40 ![] bcast_S_S128x40 main_cst_12
  let main_v36 : IVec S128x40 1 := cmpf .olt main_v34 main_v35
  let main_c_13 : IVec S_ 1 := constantI S_ 1 1#1
  let main_v37 : IVec S_ 1 := (fun x v => Host.reduce IntOp.andi x v reducesTo_S128x40_S_d0_1 h_S_) main_v36 main_c_13
  let main_v38 : IVec S_ 1 := andi main_v33 main_v37
  let main_v39 : FVec F S40 .f32 := Host.absf main_arg10
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x40 .f32) (main_arg10 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S2x1600000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x40 .f32) (main_arg10 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S1x40 : Shape := ⟨2, ![1, 40]⟩
abbrev S50000x40 : Shape := ⟨2, ![50000, 40]⟩
abbrev S5000x40 : Shape := ⟨2, ![5000, 40]⟩
abbrev S5000 : Shape := ⟨1, ![5000]⟩
abbrev S5000x1 : Shape := ⟨2, ![5000, 1]⟩

abbrev nBuf : Space → Nat
  | .hbm => 95
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S2x1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x40, .f32⟩
  | .hbm, ⟨10, _⟩ => ⟨S40, .f32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S1x1600000, .i32⟩
  | .hbm, ⟨23, _⟩ => ⟨S1600000, .i32⟩
  | .hbm, ⟨24, _⟩ => ⟨S_, .f32⟩
  | .hbm, ⟨25, _⟩ => ⟨S50000x128, .f32⟩
  | .hbm, ⟨26, _⟩ => ⟨S1600000x1, .i32⟩
  | .hbm, ⟨27, _⟩ => ⟨S50000x128, .f32⟩
  | .hbm, ⟨28, _⟩ => ⟨S_, .f32⟩
  | .hbm, ⟨29, _⟩ => ⟨S50000x128, .f32⟩
  | .hbm, ⟨30, _⟩ => ⟨S50000x128, .f32⟩
  | .hbm, ⟨31, _⟩ => ⟨S1x128, .f32⟩
  | .hbm, ⟨32, _⟩ => ⟨S50000x128, .f32⟩
  | .hbm, ⟨33, _⟩ => ⟨S1x800000, .i32⟩
  | .hbm, ⟨34, _⟩ => ⟨S800000, .i32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x128, .f32⟩
  | .hbm, ⟨44, _⟩ => ⟨S1x800000, .i32⟩
  | .hbm, ⟨45, _⟩ => ⟨S800000, .i32⟩
  | .hbm, ⟨46, _⟩ => ⟨S_, .f32⟩
  | .hbm, ⟨47, _⟩ => ⟨S50000x128, .f32⟩
  | .hbm, ⟨48, _⟩ => ⟨S800000x1, .i32⟩
  | .hbm, ⟨49, _⟩ => ⟨S50000x128, .f32⟩
  | .hbm, ⟨50, _⟩ => ⟨S50000x128, .f32⟩
  | .hbm, ⟨51, _⟩ => ⟨S1x128, .f32⟩
  | .hbm, ⟨52, _⟩ => ⟨S50000x128, .f32⟩
  | .hbm, ⟨53, _⟩ => ⟨S1x1600000, .i32⟩
  | .hbm, ⟨54, _⟩ => ⟨S1600000, .i32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x128, .f32⟩
  | .hbm, ⟨64, _⟩ => ⟨S1x1600000, .i32⟩
  | .hbm, ⟨65, _⟩ => ⟨S1600000, .i32⟩
  | .hbm, ⟨66, _⟩ => ⟨S_, .f32⟩
  | .hbm, ⟨67, _⟩ => ⟨S50000x128, .f32⟩
  | .hbm, ⟨68, _⟩ => ⟨S1600000x1, .i32⟩
  | .hbm, ⟨69, _⟩ => ⟨S50000x128, .f32⟩
  | .hbm, ⟨70, _⟩ => ⟨S_, .f32⟩
  | .hbm, ⟨71, _⟩ => ⟨S50000x128, .f32⟩
  | .hbm, ⟨72, _⟩ => ⟨S50000x128, .f32⟩
  | .hbm, ⟨73, _⟩ => ⟨S1x128, .f32⟩
  | .hbm, ⟨74, _⟩ => ⟨S50000x128, .f32⟩
  | .hbm, ⟨75, _⟩ => ⟨S1x800000, .i32⟩
  | .hbm, ⟨76, _⟩ => ⟨S800000, .i32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000x128, .f32⟩
  | .hbm, ⟨86, _⟩ => ⟨S1x800000, .i32⟩
  | .hbm, ⟨87, _⟩ => ⟨S800000, .i32⟩
  | .hbm, ⟨88, _⟩ => ⟨S_, .f32⟩
  | .hbm, ⟨89, _⟩ => ⟨S50000x128, .f32⟩
  | .hbm, ⟨90, _⟩ => ⟨S800000x1, .i32⟩
  | .hbm, ⟨91, _⟩ => ⟨S50000x128, .f32⟩
  | .hbm, ⟨92, _⟩ => ⟨S50000x128, .f32⟩
  | .hbm, ⟨93, _⟩ => ⟨S1x40, .f32⟩
  | .hbm, ⟨94, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x40, .f32⟩
  | .local _ .vmem, ⟨21, _⟩ => ⟨S1x40, .f32⟩
  | .local _ .vmem, ⟨22, _⟩ => ⟨S5000x40, .f32⟩
  | .local _ .vmem, ⟨23, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_2 : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_5 : Ref sig .tc := ⟨.hbm, 55, rfl⟩
abbrev main_v37 : Ref sig .tc := ⟨.hbm, 56, rfl⟩
abbrev main_v38 : Ref sig .tc := ⟨.hbm, 57, rfl⟩
abbrev main_c_6 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_7 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_8 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_9 : Ref sig .tc := ⟨.hbm, 77, rfl⟩
abbrev main_v55 : Ref sig .tc := ⟨.hbm, 78, rfl⟩
abbrev main_v56 : Ref sig .tc := ⟨.hbm, 79, rfl⟩
abbrev main_c_10 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_11 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x40 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x40 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S2x1600000_S1x1600000_0_0 : S2x1600000.Slices ![0, 0] S1x1600000
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S2x800000_S1x800000_1_0 : S2x800000.Slices ![1, 0] S1x800000
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x40.size a ≤ S128x40.size a
  hwx3_1 : ∀ i : grid3.Coords, EltTy.bits .f32 = 32 ∨ (Rect.block (s := S128x40) S128x40.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x40.size a ≤ S1x40.size a
  hwx3_2 : ∀ i : grid3.Coords, EltTy.bits .f32 = 32 ∨ (Rect.block (s := S1x40) S1x40.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x40.size a ≤ S50000x40.size a
  hwx3_3 : ∀ i : grid3.Coords, EltTy.bits .f32 = 32 ∨ (Rect.block (s := S50000x40) S5000x40.size (cc3_transform_3 i) (hinb3_3 i)).WholeWords (EltTy.packing .f32)

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_v15) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v50) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v67) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S128x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v68) S1x40.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v69) S5000x40.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S50000x40 : Shape := ⟨2, ![50000, 40]⟩
abbrev S1x40 : Shape := ⟨2, ![1, 40]⟩
abbrev S50000 : Shape := ⟨1, ![50000]⟩
abbrev S50000x1 : Shape := ⟨2, ![50000, 1]⟩

abbrev nBuf : Space → Nat
  | .hbm => 127
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S2x1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x40, .f32⟩
  | .hbm, ⟨10, _⟩ => ⟨S40, .f32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S1x1600000, .i32⟩
  | .hbm, ⟨23, _⟩ => ⟨S1600000, .i32⟩
  | .hbm, ⟨24, _⟩ => ⟨S_, .f32⟩
  | .hbm, ⟨25, _⟩ => ⟨S50000x128, .f32⟩
  | .hbm, ⟨26, _⟩ => ⟨S1600000x1, .i32⟩
  | .hbm, ⟨27, _⟩ => ⟨S50000x128, .f32⟩
  | .hbm, ⟨28, _⟩ => ⟨S_, .f32⟩
  | .hbm, ⟨29, _⟩ => ⟨S50000x128, .f32⟩
  | .hbm, ⟨30, _⟩ => ⟨S50000x128, .f32⟩
  | .hbm, ⟨31, _⟩ => ⟨S50000x128, .f32⟩
  | .hbm, ⟨32, _⟩ => ⟨S1x128, .f32⟩
  | .hbm, ⟨33, _⟩ => ⟨S50000x128, .f32⟩
  | .hbm, ⟨34, _⟩ => ⟨S50000x128, .f32⟩
  | .hbm, ⟨35, _⟩ => ⟨S_, .f32⟩
  | .hbm, ⟨36, _⟩ => ⟨S50000x128, .f32⟩
  | .hbm, ⟨37, _⟩ => ⟨S50000x128, .f32⟩
  | .hbm, ⟨38, _⟩ => ⟨S1x800000, .i32⟩
  | .hbm, ⟨39, _⟩ => ⟨S800000, .i32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x128, .f32⟩
  | .hbm, ⟨49, _⟩ => ⟨S1x800000, .i32⟩
  | .hbm, ⟨50, _⟩ => ⟨S800000, .i32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S1x128, .f32⟩
  | .hbm, ⟨58, _⟩ => ⟨S50000x128, .f32⟩
  | .hbm, ⟨59, _⟩ => ⟨S50000x128, .f32⟩
  | .hbm, ⟨60, _⟩ => ⟨S_, .f32⟩
  | .hbm, ⟨61, _⟩ => ⟨S50000x128, .f32⟩
  | .hbm, ⟨62, _⟩ => ⟨S50000x128, .f32⟩
  | .hbm, ⟨63, _⟩ => ⟨S1x1600000, .i32⟩
  | .hbm, ⟨64, _⟩ => ⟨S1600000, .i32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x128, .f32⟩
  | .hbm, ⟨74, _⟩ => ⟨S1x1600000, .i32⟩
  | .hbm, ⟨75, _⟩ => ⟨S1600000, .i32⟩
  | .hbm, ⟨76, _⟩ => ⟨S_, .f32⟩
  | .hbm, ⟨77, _⟩ => ⟨S50000x128, .f32⟩
  | .hbm, ⟨78, _⟩ => ⟨S1600000x1, .i32⟩
  | .hbm, ⟨79, _⟩ => ⟨S50000x128, .f32⟩
  | .hbm, ⟨80, _⟩ => ⟨S_, .f32⟩
  | .hbm, ⟨81, _⟩ => ⟨S50000x128, .f32⟩
  | .hbm, ⟨82, _⟩ => ⟨S50000x128, .f32⟩
  | .hbm, ⟨83, _⟩ => ⟨S50000x128, .f32⟩
  | .hbm, ⟨84, _⟩ => ⟨S1x128, .f32⟩
  | .hbm, ⟨85, _⟩ => ⟨S50000x128, .f32⟩
  | .hbm, ⟨86, _⟩ => ⟨S50000x128, .f32⟩
  | .hbm, ⟨87, _⟩ => ⟨S_, .f32⟩
  | .hbm, ⟨88, _⟩ => ⟨S50000x128, .f32⟩
  | .hbm, ⟨89, _⟩ => ⟨S50000x128, .f32⟩
  | .hbm, ⟨90, _⟩ => ⟨S1x800000, .i32⟩
  | .hbm, ⟨91, _⟩ => ⟨S800000, .i32⟩
  | .hbm, ⟨92, _⟩ => ⟨S_, .i32⟩
  | .hbm, ⟨93, _⟩ => ⟨S800000, .i32⟩
  | .hbm, ⟨94, _⟩ => ⟨S800000, .i1⟩
  | .hbm, ⟨95, _⟩ => ⟨S_, .i32⟩
  | .hbm, ⟨96, _⟩ => ⟨S800000, .i32⟩
  | .hbm, ⟨97, _⟩ => ⟨S800000, .i32⟩
  | .hbm, ⟨98, _⟩ => ⟨S800000, .i32⟩
  | .hbm, ⟨99, _⟩ => ⟨S800000x1, .i32⟩
  | .hbm, ⟨100, _⟩ => ⟨S800000x128, .f32⟩
  | .hbm, ⟨101, _⟩ => ⟨S1x800000, .i32⟩
  | .hbm, ⟨102, _⟩ => ⟨S800000, .i32⟩
  | .hbm, ⟨103, _⟩ => ⟨S_, .f32⟩
  | .hbm, ⟨104, _⟩ => ⟨S50000x128, .f32⟩
  | .hbm, ⟨105, _⟩ => ⟨S800000x1, .i32⟩
  | .hbm, ⟨106, _⟩ => ⟨S50000x128, .f32⟩
  | .hbm, ⟨107, _⟩ => ⟨S50000x128, .f32⟩
  | .hbm, ⟨108, _⟩ => ⟨S50000x40, .f32⟩
  | .hbm, ⟨109, _⟩ => ⟨S1x40, .f32⟩
  | .hbm, ⟨110, _⟩ => ⟨S50000x40, .f32⟩
  | .hbm, ⟨111, _⟩ => ⟨S50000x40, .f32⟩
  | .hbm, ⟨112, _⟩ => ⟨S_, .f32⟩
  | .hbm, ⟨113, _⟩ => ⟨S50000, .f32⟩
  | .hbm, ⟨114, _⟩ => ⟨S_, .f32⟩
  | .hbm, ⟨115, _⟩ => ⟨S50000, .f32⟩
  | .hbm, ⟨116, _⟩ => ⟨S50000, .f32⟩
  | .hbm, ⟨117, _⟩ => ⟨S50000x1, .f32⟩
  | .hbm, ⟨118, _⟩ => ⟨S50000x40, .f32⟩
  | .hbm, ⟨119, _⟩ => ⟨S50000x40, .f32⟩
  | .hbm, ⟨120, _⟩ => ⟨S50000x40, .f32⟩
  | .hbm, ⟨121, _⟩ => ⟨S_, .f32⟩
  | .hbm, ⟨122, _⟩ => ⟨S50000, .f32⟩
  | .hbm, ⟨123, _⟩ => ⟨S50000x1, .f32⟩
  | .hbm, ⟨124, _⟩ => ⟨S50000x1, .f32⟩
  | .hbm, ⟨125, _⟩ => ⟨S50000x40, .f32⟩
  | .hbm, ⟨126, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_call0_cst : Ref sig .tc := ⟨.hbm, 35, rfl⟩
abbrev main_call0_v0 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_2 : Ref sig .tc := ⟨.hbm, 40, rfl⟩
abbrev main_v23 : Ref sig .tc := ⟨.hbm, 41, rfl⟩
abbrev main_v24 : Ref sig .tc := ⟨.hbm, 42, rfl⟩
abbrev main_c_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_call1_cst : Ref sig .tc := ⟨.hbm, 60, rfl⟩
abbrev main_call1_v0 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_5 : Ref sig .tc := ⟨.hbm, 65, rfl⟩
abbrev main_v43 : Ref sig .tc := ⟨.hbm, 66, rfl⟩
abbrev main_v44 : Ref sig .tc := ⟨.hbm, 67, rfl⟩
abbrev main_c_6 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_7 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_8 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_call2_cst : Ref sig .tc := ⟨.hbm, 87, rfl⟩
abbrev main_call2_v0 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_9 : Ref sig .tc := ⟨.hbm, 92, rfl⟩
abbrev main_v64 : Ref sig .tc := ⟨.hbm, 93, rfl⟩
abbrev main_v65 : Ref sig .tc := ⟨.hbm, 94, rfl⟩
abbrev main_c_10 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_11 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_call3_cst : Ref sig .tc := ⟨.hbm, 112, rfl⟩
abbrev main_call3_v0 : Ref sig .tc := ⟨.hbm, 113, rfl⟩
abbrev main_call3_cst_0 : Ref sig .tc := ⟨.hbm, 114, rfl⟩
abbrev main_call3_v1 : Ref sig .tc := ⟨.hbm, 115, rfl⟩
abbrev main_call3_v2 : Ref sig .tc := ⟨.hbm, 116, rfl⟩
abbrev main_call3_v3 : Ref sig .tc := ⟨.hbm, 117, rfl⟩
abbrev main_call3_v4 : Ref sig .tc := ⟨.hbm, 118, rfl⟩
abbrev main_call3_v5 : Ref sig .tc := ⟨.hbm, 119, rfl⟩
abbrev main_call3_v6 : Ref sig .tc := ⟨.hbm, 120, rfl⟩
abbrev main_call3_cst_1 : Ref sig .tc := ⟨.hbm, 121, rfl⟩
abbrev main_call3_v7 : Ref sig .tc := ⟨.hbm, 122, rfl⟩
abbrev main_call3_v8 : Ref sig .tc := ⟨.hbm, 123, rfl⟩
abbrev main_call3_v9 : Ref sig .tc := ⟨.hbm, 124, rfl⟩
abbrev main_call3_v10 : Ref sig .tc := ⟨.hbm, 125, rfl⟩
abbrev main_v81 : Ref sig .tc := ⟨.hbm, 126, rfl⟩

abbrev nD : Nat := 1
abbrev τ : Topo := Topo.v7x

variable {F : FTy → Type} [FloatOps F]

class Facts₀ : Prop where
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S2x1600000_S1x1600000_0_0 : S2x1600000.Slices ![0, 0] S1x1600000
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S2x800000_S1x800000_1_0 : S2x800000.Slices ![1, 0] S1x800000
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x40_S50000x40_1_0_0_1_n_n_wf : DotDims.WF S50000x128 S128x40 S50000x40 [1] [0] [0] [1] [] []

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.HostChain.lean ====
/-
  The two sparse aggregations that both programs run on the host, as functions of a node-feature array and an
  edge list (two rows of node numbers).

  A node number below zero wraps once by the node count 50000 (numpy's indexing of a negative position); the wrapped
  numbers select rows of the features (a gather), and the selected rows are added into a zero array at the rows the
  other edge row names (a scatter-add). The ego convolution gathers by the edge list's second row, adds at its
  first and scales by the single-precision constant nearest 1/50000; the GIN sum gathers by the first row, adds at
  the second and adds the features themselves. Nothing here is opened by the certificate: both programs apply these
  same functions, and only that is used.
-/
import proofs.«111052_j87479893885153_1_alg».proof.Proof.Gen.KernelIdeal

noncomputable section

namespace Cert.KernelIdeal.Chain

open Cert.KernelIdeal Cert.KernelIdeal.Facts₀ Cert.KernelIdeal.Facts Idealize.ShloMosaic

variable {F : FTy → Type} [FloatOps F]

/-- A node-feature array: 50000 rows of 128 features. -/
abbrev Feat (F : FTy → Type) : Type := (⟨S50000x128, .f32⟩ : BufTy).Contents (Elt F)

/-- Row `1` of the ego edge list, as a flat vector of 1600000 node numbers. -/
def egoRow1 (ego : (⟨S2x1600000, .i32⟩ : BufTy).Contents (Elt F)) : (⟨S1600000, .i32⟩ : BufTy).Contents (Elt F) :=
  fun i => shapeCast S1600000 (extractStridedSlice S1x1600000 ![1, 0] ego slices_S2x1600000_S1x1600000_1_0) shapeCasts_S1x1600000_S1600000 i

/-- Row `0` of the ego edge list, as a flat vector. -/
def egoRow0 (ego : (⟨S2x1600000, .i32⟩ : BufTy).Contents (Elt F)) : (⟨S1600000, .i32⟩ : BufTy).Contents (Elt F) :=
  fun i => shapeCast S1600000 (extractStridedSlice S1x1600000 ![0, 0] ego slices_S2x1600000_S1x1600000_0_0) shapeCasts_S1x1600000_S1600000 i

/-- A negative node number wraps once by the node count. -/
def wrapEgo (n : (⟨S1600000, .i32⟩ : BufTy).Contents (Elt F)) : (⟨S1600000, .i32⟩ : BufTy).Contents (Elt F) :=
  select (cmpi .slt n (broadcastInDim S1600000 ![] bcast_S_S1600000 (constantI S_ 32 0#32)))
    (addi n (broadcastInDim S1600000 ![] bcast_S_S1600000 (constantI S_ 32 50000#32))) n

/-- The ego convolution: the rows named by the edge list's second row, added at the rows its first row names, scaled. -/
def egoConv (x : Feat F) (ego : (⟨S2x1600000, .i32⟩ : BufTy).Contents (Elt F)) : Feat F :=
  mulf
    (Host.scatterAdd scatter_S50000x128_S1600000x1_S1600000x128_1_0_0_1
      (broadcastInDim S50000x128 ![] bcast_S_S50000x128 (constant (F := F) S_ .f32 0x00000000#32))
      (broadcastInDim S1600000x1 ![0] bcast_S1600000_S1600000x1_0 (egoRow0 (F := F) ego))
      (Host.gather gather_S50000x128_S1600000x1_S1600000x128_1_0_n_n_0_1_1128 x
        (broadcastInDim S1600000x1 ![0] bcast_S1600000_S1600000x1_0 (wrapEgo (F := F) (egoRow1 (F := F) ego)))))
    (broadcastInDim S50000x128 ![] bcast_S_S50000x128 (constant (F := F) S_ .f32 0x37A7C5AC#32))

/-- Row `0` of the edge list, as a flat vector of 800000 node numbers. -/
def edgeRow0 (ei : (⟨S2x800000, .i32⟩ : BufTy).Contents (Elt F)) : (⟨S800000, .i32⟩ : BufTy).Contents (Elt F) :=
  fun i => shapeCast S800000 (extractStridedSlice S1x800000 ![0, 0] ei slices_S2x800000_S1x800000_0_0) shapeCasts_S1x800000_S800000 i

/-- Row `1` of the edge list, as a flat vector. -/
def edgeRow1 (ei : (⟨S2x800000, .i32⟩ : BufTy).Contents (Elt F)) : (⟨S800000, .i32⟩ : BufTy).Contents (Elt F) :=
  fun i => shapeCast S800000 (extractStridedSlice S1x800000 ![1, 0] ei slices_S2x800000_S1x800000_1_0) shapeCasts_S1x800000_S800000 i

/-- A negative node number wraps once by the node count. -/
def wrapEdge (n : (⟨S800000, .i32⟩ : BufTy).Contents (Elt F)) : (⟨S800000, .i32⟩ : BufTy).Contents (Elt F) :=
  select (cmpi .slt n (broadcastInDim S800000 ![] bcast_S_S800000 (constantI S_ 32 0#32)))
    (addi n (broadcastInDim S800000 ![] bcast_S_S800000 (constantI S_ 32 50000#32))) n

/-- The GIN sum: the features plus, at the rows the edge list's second row names, the rows its first row names. -/
def ginSum (x : Feat F) (ei : (⟨S2x800000, .i32⟩ : BufTy).Contents (Elt F)) : Feat F :=
  addf x
    (Host.scatterAdd scatter_S50000x128_S800000x1_S800000x128_1_0_0_1
      (broadcastInDim S50000x128 ![] bcast_S_S50000x128 (constant (F := F) S_ .f32 0x00000000#32))
      (broadcastInDim S800000x1 ![0] bcast_S800000_S800000x1_0 (edgeRow1 (F := F) ei))
      (Host.gather gather_S50000x128_S800000x1_S800000x128_1_0_n_n_0_1_1128 x
        (broadcastInDim S800000x1 ![0] bcast_S800000_S800000x1_0 (wrapEdge (F := F) (edgeRow0 (F := F) ei)))))

/-- A bias vector of 128 entries laid out as a one-row array. -/
def asRow128 (b : (⟨S128, .f32⟩ : BufTy).Contents (Elt F)) : (⟨S1x128, .f32⟩ : BufTy).Contents (Elt F) :=
  fun i => shapeCast S1x128 b shapeCasts_S128_S1x128 i

/-- A bias vector of 40 entries laid out as a one-row array. -/
def asRow40 (b : (⟨S40, .f32⟩ : BufTy).Contents (Elt F)) : (⟨S1x40, .f32⟩ : BufTy).Contents (Elt F) :=
  fun i => shapeCast S1x40 b shapeCasts_S40_S1x40 i

end Cert.KernelIdeal.Chain

end
-- ==== Proof.KernelStretch.lean ====
/-
  The kernel program's four stretches of host operations, read: from any contents of the buffers, the first and
  third stretch leave the ego convolution of a feature array in the buffer the next dense kernel reads, the second
  and fourth the GIN sum, each also lays the next kernel's bias out as a one-row array, and none of them writes
  an argument buffer.
-/
import proofs.«111052_j87479893885153_1_alg».proof.Proof.Gen.KernelIdeal.Launch
import proofs.«111052_j87479893885153_1_alg».proof.Proof.HostChain
import Idealize.ShloMosaic.Lib.StableHlo.Run

set_option maxRecDepth 16384

noncomputable section

namespace Cert.KernelIdeal.Stretch

open Cert.KernelIdeal Cert.KernelIdeal.Gen Cert.KernelIdeal.Chain
open Idealize.ShloMosaic Idealize.ShloMosaic.TcCoe Idealize.SL.Sem Idealize.ShloMosaic.StableHlo

variable {F : FTy → Type} [FloatOps F]

/-- The eleven argument buffers of @main. -/
abbrev argRefs : List (Ref sig .tc) :=
  [main_arg0, main_arg1, main_arg2, main_arg3, main_arg4, main_arg5, main_arg6, main_arg7, main_arg8, main_arg9, main_arg10]

/-- A buffer none of a stretch's operations writes keeps its contents: the operations' result buffers are listed and
    each is another buffer. -/
macro "stretch_keeps" ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## Before the first dense kernel -/

set_option maxHeartbeats 4000000 in
theorem host0_conv (U : Valuation τ sig (Elt F)) :
    after (hostOps0 (F := F)) U (Proc.devRef .tc main_v15)
      = egoConv (F := F) (U (Proc.devRef .tc main_arg0)) (U (Proc.devRef .tc main_arg2)) := by
  after_results_simp <;> rfl

set_option maxHeartbeats 4000000 in
theorem host0_bias (U : Valuation τ sig (Elt F)) :
    after (hostOps0 (F := F)) U (Proc.devRef .tc main_v16) = asRow128 (F := F) (U (Proc.devRef .tc main_arg4)) := by
  after_results_simp <;> rfl

set_option maxHeartbeats 4000000 in
theorem host0_keeps (U : Valuation τ sig (Elt F)) (b : Ref sig .tc) (hb : b ∈ argRefs) :
    after (hostOps0 (F := F)) U (Proc.devRef .tc b) = U (Proc.devRef .tc b) := by
  simp only [argRefs, List.mem_cons, List.not_mem_nil, or_false] at hb
  rcases hb with rfl | rfl | rfl | rfl | rfl | rfl | rfl | rfl | rfl | rfl | rfl <;> stretch_keeps hostOps0

/-! ## Between the first and the second dense kernel -/

set_option maxHeartbeats 4000000 in
theorem host1_gin (U : Valuation τ sig (Elt F)) :
    after (hostOps1 (F := F)) U (Proc.devRef .tc main_v32)
      = ginSum (F := F) (U (Proc.devRef .tc main_v17)) (U (Proc.devRef .tc main_arg1)) := by
  after_results_simp <;> rfl

set_option maxHeartbeats 4000000 in
theorem host1_bias (U : Valuation τ sig (Elt F)) :
    after (hostOps1 (F := F)) U (Proc.devRef .tc main_v33) = asRow128 (F := F) (U (Proc.devRef .tc main_arg6)) := by
  after_results_simp <;> rfl

set_option maxHeartbeats 4000000 in
theorem host1_keeps (U : Valuation τ sig (Elt F)) (b : Ref sig .tc) (hb : b ∈ argRefs) :
    after (hostOps1 (F := F)) U (Proc.devRef .tc b) = U (Proc.devRef .tc b) := by
  simp only [argRefs, List.mem_cons, List.not_mem_nil, or_false] at hb
  rcases hb with rfl | rfl | rfl | rfl | rfl | rfl | rfl | rfl | rfl | rfl | rfl <;> stretch_keeps hostOps1

/-! ## Between the second and the third dense kernel -/

set_option maxHeartbeats 4000000 in
theorem host2_conv (U : Valuation τ sig (Elt F)) :
    after (hostOps2 (F := F)) U (Proc.devRef .tc main_v50)
      = egoConv (F := F) (U (Proc.devRef .tc main_v34)) (U (Proc.devRef .tc main_arg2)) := by
  after_results_simp <;> rfl

set_option maxHeartbeats 4000000 in
theorem host2_bias (U : Valuation τ sig (Elt F)) :
    after (hostOps2 (F := F)) U (Proc.devRef .tc main_v51) = asRow128 (F := F) (U (Proc.devRef .tc main_arg8)) := by
  after_results_simp <;> rfl

set_option maxHeartbeats 4000000 in
theorem host2_keeps (U : Valuation τ sig (Elt F)) (b : Ref sig .tc) (hb : b ∈ argRefs) :
    after (hostOps2 (F := F)) U (Proc.devRef .tc b) = U (Proc.devRef .tc b) := by
  simp only [argRefs, List.mem_cons, List.not_mem_nil, or_false] at hb
  rcases hb with rfl | rfl | rfl | rfl | rfl | rfl | rfl | rfl | rfl | rfl | rfl <;> stretch_keeps hostOps2

/-! ## Between the third and the last dense kernel -/

set_option maxHeartbeats 4000000 in
theorem host3_gin (U : Valuation τ sig (Elt F)) :
    after (hostOps3 (F := F)) U (Proc.devRef .tc main_v67)
      = ginSum (F := F) (U (Proc.devRef .tc main_v52)) (U (Proc.devRef .tc main_arg1)) := by
  after_results_simp <;> rfl

set_option maxHeartbeats 4000000 in
theorem host3_bias (U : Valuation τ sig (Elt F)) :
    after (hostOps3 (F := F)) U (Proc.devRef .tc main_v68) = asRow40 (F := F) (U (Proc.devRef .tc main_arg10)) := by
  after_results_simp <;> rfl

set_option maxHeartbeats 4000000 in
theorem host3_keeps (U : Valuation τ sig (Elt F)) (b : Ref sig .tc) (hb : b ∈ argRefs) :
    after (hostOps3 (F := F)) U (Proc.devRef .tc b) = U (Proc.devRef .tc b) := by
  simp only [argRefs, List.mem_cons, List.not_mem_nil, or_false] at hb
  rcases hb with rfl | rfl | rfl | rfl | rfl | rfl | rfl | rfl | rfl | rfl | rfl <;> stretch_keeps hostOps3

end Cert.KernelIdeal.Stretch

end
-- ==== Proof.Spec.lean ====
/-
  The mathematics of the four dense stages, stated once, index by index, over the extended reals.

  A dense stage takes a node-feature array x (one row per node), a weight matrix w and a bias row b. Its
  affine part at row r and column q is the contraction  sum over k of x[r, k] * w[k, q],  plus b[q].
  The first three stages follow it by the rectifier  max(., 0);  the last by the row-wise log-softmax:
  with y the affine row, M its maximum taken from the lower end of the extended reals, the entry at q is
  (y q - M) - log (sum over k of exp (y k - M)).

  Both programs compute exactly these functions: no algebraic law beyond commutativity of a finite sum's
  reading is needed, and in particular nothing here depends on the inputs being finite.
-/
import Idealize.ShloMosaic.PureOps.Ideal
import Idealize.ShloMosaic.Lib.ValueIdx
import Mathlib.Data.Finset.Fold

noncomputable section

open scoped BigOperators

namespace Cert.Spec

open Idealize.ShloMosaic Idealize.ShloMosaic.ValueIdx

/-- The lower end the row maximum is folded from: the f32 word of minus infinity, never evaluated. -/
abbrev negInf : EReal := Ideal.ofBits .f32 0xFF800000#32

/-- The maximum of a row of 40 extended reals, folded from `negInf`. -/
def rowMax (y : Fin 40 → EReal) : EReal := (Finset.univ : Finset (Fin 40)).fold max negInf y

/-- Folding `max` from a value never goes below that value: taking the maximum with it again changes nothing. -/
theorem max_negInf_rowMax (y : Fin 40 → EReal) : max negInf (rowMax y) = rowMax y :=
  max_eq_right ((Finset.le_fold_max negInf).mpr (Or.inl le_rfl))

/-- The log-softmax of a row of 40 extended reals, at column q: the shifted entry minus the logarithm of the
    sum of the exponentials of the shifted row. -/
def lsmRow (y : Fin 40 → EReal) (q : Fin 40) : EReal :=
  (y q - rowMax y) - Ideal.log (∑ k : Fin 40, Ideal.exp (y k - rowMax y))

/-- The affine part of a 128-to-128 dense stage at row r, column q. -/
def affine128 (x : FVec Ideal ⟨2, ![50000, 128]⟩ .f32) (w : FVec Ideal ⟨2, ![128, 128]⟩ .f32)
    (b : FVec Ideal ⟨1, ![128]⟩ .f32) (r : Fin 50000) (q : Fin 128) : EReal :=
  (∑ k : Fin 128, x (ix2 r k) * w (ix2 k q)) + b (ix1 q)

/-- The affine part of the 128-to-40 dense stage at row r, column q. -/
def affine40 (x : FVec Ideal ⟨2, ![50000, 128]⟩ .f32) (w : FVec Ideal ⟨2, ![128, 40]⟩ .f32)
    (b : FVec Ideal ⟨1, ![40]⟩ .f32) (r : Fin 50000) (q : Fin 40) : EReal :=
  (∑ k : Fin 128, x (ix2 r k) * w (ix2 k q)) + b (ix1 q)

/-- A dense stage with the rectifier: every entry is the affine part, cut below at zero. -/
def denseRelu (x : FVec Ideal ⟨2, ![50000, 128]⟩ .f32) (w : FVec Ideal ⟨2, ![128, 128]⟩ .f32)
    (b : FVec Ideal ⟨1, ![128]⟩ .f32) : FVec Ideal ⟨2, ![50000, 128]⟩ .f32 :=
  fun i => max (affine128 x w b (i 0) (i 1)) 0

/-- The last dense stage: every row is the log-softmax of its affine row. -/
def denseLsm (x : FVec Ideal ⟨2, ![50000, 128]⟩ .f32) (w : FVec Ideal ⟨2, ![128, 40]⟩ .f32)
    (b : FVec Ideal ⟨1, ![40]⟩ .f32) : FVec Ideal ⟨2, ![50000, 40]⟩ .f32 :=
  fun i => lsmRow (affine40 x w b (i 0)) (i 1)

end Cert.Spec

end
-- ==== Proof.KernelPay.lean ====
/-
  What one grid point of each dense kernel stores, read at an entry of its 5000-row block.

  With x the point's block of node rows, w the whole weight matrix and b the bias as a one-row array, the stored
  value at row p, column q is a function of the affine row  sum over k of x[p, k] * w[k, q],  plus b[0, q]:
  cut below at zero in the first three kernels, passed through the row's log-softmax in the last. The change of
  float format before the product is the identity on the extended reals, the product into a zero accumulator is
  the bare contraction sum, and the two lane reductions of the last kernel are the row's maximum and the row's sum.
-/
import proofs.«111052_j87479893885153_1_alg».proof.Proof.Gen.KernelIdeal.Skeleton
import proofs.«111052_j87479893885153_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx Cert.Spec

/-- The affine row of a block of 5000 node rows against a 128-column weight matrix, the bias a one-row array. -/
def blockAffine128 (x : Vec Ideal S5000x128 .f32) (w : Vec Ideal S128x128 .f32) (b : Vec Ideal S1x128 .f32)
    (p : Fin 5000) (q : Fin 128) : EReal :=
  (∑ k : Fin 128, x (ix2 p k) * w (ix2 k q)) + b (ix2 (0 : Fin 1) q)

/-- The same against the 40-column weight matrix of the last stage. -/
def blockAffine40 (x : Vec Ideal S5000x128 .f32) (w : Vec Ideal S128x40 .f32) (b : Vec Ideal S1x40 .f32)
    (p : Fin 5000) (q : Fin 40) : EReal :=
  (∑ k : Fin 128, x (ix2 p k) * w (ix2 k q)) + b (ix2 (0 : Fin 1) q)

/-! ## The product into a zero accumulator, read at an entry -/

theorem lhs128_0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs128_1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c
theorem rhs128_0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c
theorem rhs128_1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The 128-column product into the zero array, at row p and column q: the contraction sum over the 128 shared
    coordinates, each factor read at its own entry. -/
theorem matmul128_apply (x : FVec Ideal S5000x128 .bf16) (w : FVec Ideal S128x128 .bf16) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  refine (Ideal.matmul_constant_zero_apply dot_S5000x128_S128x128_S5000x128_1_0_0_1_n_n none x w (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs128_0 _ _
    | ⟨1, _⟩ => exact (lhs128_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs128_0 _ _).trans hk
    | ⟨1, _⟩ => exact rhs128_1 _ _)
  rw [el, er]

theorem lhs40_0 (i : S5000x40.Idx) (c : dot_S5000x128_S128x40_S5000x40_1_0_0_1_n_n.contr.Idx) :
    (dot_S5000x128_S128x40_S5000x40_1_0_0_1_n_n.lhsIdx i c 0).val = (i 0).val := by
  unfold DotDims.lhsIdx
  rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
  rfl
theorem lhs40_1 (i : S5000x40.Idx) (c : dot_S5000x128_S128x40_S5000x40_1_0_0_1_n_n.contr.Idx) :
    (dot_S5000x128_S128x40_S5000x40_1_0_0_1_n_n.lhsIdx i c 1).val = (c ⟨0, by decide⟩).val :=
  dot_S5000x128_S128x40_S5000x40_1_0_0_1_n_n.lhsIdx_val_of_single rfl i c
theorem rhs40_0 (i : S5000x40.Idx) (c : dot_S5000x128_S128x40_S5000x40_1_0_0_1_n_n.contr.Idx) :
    (dot_S5000x128_S128x40_S5000x40_1_0_0_1_n_n.rhsIdx i c 0).val = (c ⟨0, by decide⟩).val :=
  dot_S5000x128_S128x40_S5000x40_1_0_0_1_n_n.rhsIdx_val_of_single rfl i c
theorem rhs40_1 (i : S5000x40.Idx) (c : dot_S5000x128_S128x40_S5000x40_1_0_0_1_n_n.contr.Idx) :
    (dot_S5000x128_S128x40_S5000x40_1_0_0_1_n_n.rhsIdx i c 1).val = (i 1).val := by
  unfold DotDims.rhsIdx
  rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
  rfl

/-- The 40-column product into the zero array, at row p and column q: the contraction sum over the 128 shared
    coordinates, each factor read at its own entry. -/
theorem matmul40_apply (x : FVec Ideal S5000x128 .bf16) (w : FVec Ideal S128x40 .bf16) (p : Fin 5000) (q : Fin 40) :
    matmul dot_S5000x128_S128x40_S5000x40_1_0_0_1_n_n none x w (constant (F := Ideal) S5000x40 .f32 0x00000000#32) (ix2 p q)
      = ∑ k : Fin 128, x (ix2 p k) * w (ix2 k q) := by
  refine (Ideal.matmul_constant_zero_apply dot_S5000x128_S128x40_S5000x40_1_0_0_1_n_n none x w (ix2 p q)).trans ?_
  rw [← Equiv.sum_comp (contrEquiv1 dot_S5000x128_S128x40_S5000x40_1_0_0_1_n_n 128 rfl rfl).symm]
  refine Finset.sum_congr rfl fun k _ => ?_
  have hk := contrEquiv1_symm_val dot_S5000x128_S128x40_S5000x40_1_0_0_1_n_n 128 rfl rfl k
  have el : dot_S5000x128_S128x40_S5000x40_1_0_0_1_n_n.lhsIdx (ix2 p q) ((contrEquiv1 dot_S5000x128_S128x40_S5000x40_1_0_0_1_n_n 128 rfl rfl).symm k) = ix2 p k := funext fun a => Fin.ext (by
    match a with
    | ⟨0, _⟩ => exact lhs40_0 _ _
    | ⟨1, _⟩ => exact (lhs40_1 _ _).trans hk)
  have er : dot_S5000x128_S128x40_S5000x40_1_0_0_1_n_n.rhsIdx (ix2 p q) ((contrEquiv1 dot_S5000x128_S128x40_S5000x40_1_0_0_1_n_n 128 rfl rfl).symm k) = ix2 k q := funext fun a => Fin.ext (by
    match a with
    | ⟨0, _⟩ => exact (rhs40_0 _ _).trans hk
    | ⟨1, _⟩ => exact rhs40_1 _ _)
  rw [el, er]

/-! ## The two column layout operations, read at an entry -/

/-- An array of a entries cast to a column, a rows of one entry: row i holds entry i, whatever the unit coordinate. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column of a rows spread over b columns: entry (i, j) is the column's entry in row i. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-! ## The two lane reductions of the last kernel, read at a row -/

/-- The source entry a lane reduction of a 5000-by-40 array visits for row p at lane k is entry (p, k). -/
theorem lift40 (p : Fin 5000) (k : Fin 40) : reduces_S5000x40_S5000.lift (ix1 p) k = ix2 p k :=
  funext fun a => Fin.ext (by
    match a with
    | ⟨0, _⟩ => rfl
    | ⟨1, _⟩ => rfl)

/-- The lane maximum from the lower end, at row p: the maximum of that row. -/
theorem rowMax40_apply (v : FVec Ideal S5000x40 .f32) (hφ : FKind.Formats .f32)
    (hacc : (0xFF800000#32 : BitVec 32) = FKind.maximumf.neutral .f32 hφ) (p : Fin 5000) :
    multiReduction .maximumf [1] S5000 v 0xFF800000#32 reduces_S5000x40_S5000 hφ hacc (ix1 p)
      = rowMax fun k => v (ix2 p k) := by
  refine (Ideal.multiReduction_maximumf_single v 0xFF800000#32 reduces_S5000x40_S5000 hφ hacc (ix1 p)).trans ?_
  show (Finset.univ : Finset (Fin 40)).fold max negInf (fun k => v (reduces_S5000x40_S5000.lift (ix1 p) k)) = _
  unfold rowMax
  exact congrArg (fun f : Fin 40 → EReal => (Finset.univ : Finset (Fin 40)).fold max negInf f) (funext fun k => congrArg v (lift40 p k))

/-- The lane sum from zero, at row p: the sum of that row. -/
theorem rowSum40_apply (v : FVec Ideal S5000x40 .f32) (hφ : FKind.Formats .f32)
    (hacc : (0x00000000#32 : BitVec 32) = FKind.add.neutral .f32 hφ) (p : Fin 5000) :
    multiReduction .add [1] S5000 v 0x00000000#32 reduces_S5000x40_S5000 hφ hacc (ix1 p)
      = ∑ k : Fin 40, v (ix2 p k) := by
  refine (Ideal.multiReduction_add_single v 0x00000000#32 reduces_S5000x40_S5000 hφ hacc (ix1 p)).trans ?_
  show ∑ k : Fin 40, v (reduces_S5000x40_S5000.lift (ix1 p) k) = _
  exact Finset.sum_congr rfl fun k _ => congrArg v (lift40 p k)

/-! ## The affine array as the kernels build it, read at an entry -/

/-- The first three kernels' affine array: both operands through the format change, which is the identity here, the
    product into zero, and the bias row spread over the 5000 rows. -/
theorem affine128_apply (x : Vec Ideal S5000x128 .f32) (w : Vec Ideal S128x128 .f32) (b : Vec Ideal S1x128 .f32)
    (p : Fin 5000) (q : Fin 128) :
    addf (matmul dot_S5000x128_S128x128_S5000x128_1_0_0_1_n_n none
            (truncf .bf16 (shapeCast S5000x128 x shapeCasts_S5000x128_S5000x128) bitsLt_bf16_f32)
            (truncf .bf16 w bitsLt_bf16_f32) (constant (F := Ideal) S5000x128 .f32 0x00000000#32))
         (broadcastTo S5000x128 (shapeCast S1x128 b shapeCasts_S1x128_S1x128) broadcasts_S1x128_S5000x128) (ix2 p q)
      = blockAffine128 x w b p q := by
  rw [shapeCast_self x, shapeCast_self b]
  refine (addf_apply _ _ _).trans ?_
  unfold blockAffine128
  refine congrArg₂ (· + ·) ?_ ?_
  · exact (matmul128_apply _ _ p q).trans (Finset.sum_congr rfl fun k _ => rfl)
  · exact broadcastTo_1b_ab_apply b _ p q

/-- The last kernel's affine array, the same at 40 columns. -/
theorem affine40_apply (x : Vec Ideal S5000x128 .f32) (w : Vec Ideal S128x40 .f32) (b : Vec Ideal S1x40 .f32)
    (p : Fin 5000) (q : Fin 40) :
    addf (matmul dot_S5000x128_S128x40_S5000x40_1_0_0_1_n_n none
            (truncf .bf16 (shapeCast S5000x128 x shapeCasts_S5000x128_S5000x128) bitsLt_bf16_f32)
            (truncf .bf16 w bitsLt_bf16_f32) (constant (F := Ideal) S5000x40 .f32 0x00000000#32))
         (broadcastTo S5000x40 (shapeCast S1x40 b shapeCasts_S1x40_S1x40) broadcasts_S1x40_S5000x40) (ix2 p q)
      = blockAffine40 x w b p q := by
  rw [shapeCast_self x, shapeCast_self b]
  refine (addf_apply _ _ _).trans ?_
  unfold blockAffine40
  refine congrArg₂ (· + ·) ?_ ?_
  · exact (matmul40_apply _ _ p q).trans (Finset.sum_congr rfl fun k _ => rfl)
  · exact broadcastTo_1b_ab_apply b _ p q

/-! ## The last kernel's steps after the affine array -/

/-- An array shifted by its row maxima, as the last kernel builds it: the lane maximum, made a column, spread back
    over the 40 columns and subtracted. -/
def shifted (y : FVec Ideal S5000x40 .f32) : FVec Ideal S5000x40 .f32 :=
  subf y (broadcastTo S5000x40 (shapeCast S5000x1
    (multiReduction .maximumf [1] S5000 y 0xFF800000#32 reduces_S5000x40_S5000 (.inl rfl) rfl)
    shapeCasts_S5000_S5000x1) broadcasts_S5000x1_S5000x40)

/-- At (p, k) it is the entry minus the maximum of row p. -/
theorem shifted_apply (y : FVec Ideal S5000x40 .f32) (p : Fin 5000) (k : Fin 40) :
    shifted y (ix2 p k) = y (ix2 p k) - rowMax fun j => y (ix2 p j) := by
  unfold shifted
  refine (subf_apply _ _ _).trans ?_
  refine congrArg (y (ix2 p k) - ·) ?_
  refine (broadcastTo_a1_ab_apply _ _ p k).trans ?_
  refine (shapeCast_a_a1_apply _ _ p 0).trans ?_
  exact rowMax40_apply y _ _ p

/-- The shifted array minus the logarithm of the lane sum of its exponentials, that logarithm taken on a column and
    spread back over the 40 columns: at (p, q), the log-softmax of row p at q. -/
theorem lsmTail_apply (y : FVec Ideal S5000x40 .f32) (p : Fin 5000) (q : Fin 40) :
    subf (shifted y) (broadcastTo S5000x40 (log (shapeCast S5000x1
        (multiReduction .add [1] S5000 (exp (shifted y)) 0x00000000#32 reduces_S5000x40_S5000 (.inl rfl) rfl)
        shapeCasts_S5000_S5000x1)) broadcasts_S5000x1_S5000x40) (ix2 p q)
      = lsmRow (fun k => y (ix2 p k)) q := by
  refine (subf_apply _ _ _).trans ?_
  unfold lsmRow
  refine congrArg₂ (· - ·) (shifted_apply y p q) ?_
  refine (broadcastTo_a1_ab_apply _ _ p q).trans ?_
  show Ideal.log (shapeCast S5000x1 _ shapeCasts_S5000_S5000x1 (ix2 p (0 : Fin 1))) = _
  refine congrArg Ideal.log ?_
  refine (shapeCast_a_a1_apply _ _ p 0).trans ?_
  refine (rowSum40_apply _ _ _ p).trans ?_
  refine Finset.sum_congr rfl fun k _ => ?_
  show Ideal.exp (shifted y (ix2 p k)) = _
  exact congrArg Ideal.exp (shifted_apply y p k)

/-! ## The stored values -/

theorem relu0_apply (x : Vec Ideal S5000x128 .f32) (w : Vec Ideal S128x128 .f32) (b : Vec Ideal S1x128 .f32)
    (p : Fin 5000) (q : Fin 128) :
    k0_pay1 (F := Ideal) x w b (ix2 p q) = max (blockAffine128 x w b p q) 0 := by
  unfold k0_pay1
  refine (maximumf_apply _ _ _).trans ?_
  refine congrArg₂ max (affine128_apply x w b p q) ?_
  exact Ideal.ofBits_zero_f32

/-- The second and third kernels store the same function of their three blocks as the first. -/
theorem k1_eq_k0 : @k1_pay1 = @k0_pay1 := rfl
theorem k2_eq_k0 : @k2_pay1 = @k0_pay1 := rfl

theorem relu1_apply (x : Vec Ideal S5000x128 .f32) (w : Vec Ideal S128x128 .f32) (b : Vec Ideal S1x128 .f32)
    (p : Fin 5000) (q : Fin 128) :
    k1_pay1 (F := Ideal) x w b (ix2 p q) = max (blockAffine128 x w b p q) 0 := by
  rw [k1_eq_k0]
  exact relu0_apply x w b p q

theorem relu2_apply (x : Vec Ideal S5000x128 .f32) (w : Vec Ideal S128x128 .f32) (b : Vec Ideal S1x128 .f32)
    (p : Fin 5000) (q : Fin 128) :
    k2_pay1 (F := Ideal) x w b (ix2 p q) = max (blockAffine128 x w b p q) 0 := by
  rw [k2_eq_k0]
  exact relu0_apply x w b p q

theorem lsm3_apply (x : Vec Ideal S5000x128 .f32) (w : Vec Ideal S128x40 .f32) (b : Vec Ideal S1x40 .f32)
    (p : Fin 5000) (q : Fin 40) :
    k3_pay1 (F := Ideal) x w b (ix2 p q) = lsmRow (blockAffine40 x w b p) q := by
  unfold k3_pay1
  refine (lsmTail_apply _ p q).trans ?_
  exact congrArg (fun y => lsmRow y q) (funext fun k => affine40_apply x w b p k)

end Cert.KernelIdeal.Pay

end
-- ==== Proof.Region.lean ====
/-
  What each dense kernel's output array holds when its region ends, as one function of the arrays the region
  found: its ten row blocks of 5000 nodes tile the 50000 node rows, block t of the input is rows 5000 t … 5000 t + 4999,
  the weight and the bias are read whole at every point, so row r of the result is the stage's row function of
  row r of the input.
-/
import proofs.«111052_j87479893885153_1_alg».proof.Proof.Gen.KernelIdeal.Frame
import proofs.«111052_j87479893885153_1_alg».proof.Proof.KernelPay
import proofs.«111052_j87479893885153_1_alg».proof.Proof.Spec
import Idealize.ShloMosaic.Lib.Pipeline.Value
import Idealize.ShloMosaic.Lib.Tactic

set_option maxRecDepth 16384

noncomputable section

open scoped BigOperators
open Idealize.ShloMosaic Idealize.ShloMosaic.TcCoe Idealize.SL.Sem
open Idealize.ShloMosaic.Pipeline (Dat)

namespace Cert.KernelIdeal.Region

open Cert.KernelIdeal Cert.KernelIdeal.Gen Idealize.ShloMosaic.ValueIdx Cert.Spec Cert.KernelIdeal.Pay

variable (V : (c : Dev nD) → (b : Ref sig .tc) → Buf (Elt Ideal) ((c : Thread nD τ).loc b))

/-- A bias held as a one-row array, read as a row vector. -/
def biasRow128 (b : Vec Ideal S1x128 .f32) : FVec Ideal ⟨1, ![128]⟩ .f32 := fun j => b (ix2 (0 : Fin 1) (j 0))
def biasRow40 (b : Vec Ideal S1x40 .f32) : FVec Ideal ⟨1, ![40]⟩ .f32 := fun j => b (ix2 (0 : Fin 1) (j 0))

/-- The zero offsets of a whole-buffer access, as the constant function. -/
theorem hz : (![0, 0] : Fin 2 → Nat) = fun _ => 0 := funext fun a => by fin_cases a <;> rfl

/-- Row p of a block whose rows are rows of the array, against the whole weight and the whole bias: the rectified
    affine entry of the block is the stage's entry at the array's row. -/
theorem relu_row (X : Vec Ideal S5000x128 .f32) (W : Vec Ideal S128x128 .f32) (B : Vec Ideal S1x128 .f32)
    (x : FVec Ideal ⟨2, ![50000, 128]⟩ .f32) (w : FVec Ideal ⟨2, ![128, 128]⟩ .f32) (b : Vec Ideal S1x128 .f32)
    (r : Fin 50000) (p : Fin 5000) (q : Fin 128)
    (hX : ∀ k : Fin 128, X (ix2 p k) = x (ix2 r k)) (hW : ∀ k : Fin 128, W (ix2 k q) = w (ix2 k q))
    (hB : B (ix2 (0 : Fin 1) q) = b (ix2 (0 : Fin 1) q)) :
    max (blockAffine128 X W B p q) 0 = denseRelu x w (biasRow128 b) (ix2 r q) := by
  unfold blockAffine128 denseRelu affine128 biasRow128
  show max ((∑ k : Fin 128, X (ix2 p k) * W (ix2 k q)) + B (ix2 (0 : Fin 1) q)) 0
    = max ((∑ k : Fin 128, x (ix2 r k) * w (ix2 k q)) + b (ix2 (0 : Fin 1) q)) 0
  rw [Finset.sum_congr rfl (fun k _ => by rw [hX k, hW k]), hB]

/-! ## The first stage -/

/-- The index maps over the ten points: the input and the output move down the rows with the point, the weight and
    the bias stay at the origin. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of block t is a row of the array. -/
theorem row_lt0 (t : Fin cfg0.N) (p : Fin 5000) : 5000 * t.val + p.val < 50000 := by
  have ht : t.val < grid0.N := t.isLt
  rw [N_0] at ht
  have hp := p.isLt
  omega

/-- Entry (p, k) of input block t is the array's entry at row 5000 t + p. -/
theorem xblk0 (c : Dev nD) (t : Fin cfg0.N) (p : Fin 5000) (k : Fin 128) :
    iblk0 (F := Ideal) V c 0 t (ix2 p k) = V c main_v15 (ix2 ⟨5000 * t.val + p.val, row_lt0 t p⟩ k) := by
  unfold iblk0
  rw [View.read_apply]
  show V c main_v15 (((cfg0.win 0).blk t).view.emb (ix2 p k)) = V c main_v15 _
  congr 1
  obtain ⟨e0, e1, -⟩ := idx_facts0 t
  funext a; apply Fin.ext
  match a with
  | ⟨0, _⟩ => show win0_0.index t (0 : Fin 2) * 5000 + 1 * p.val = 5000 * t.val + p.val; omega
  | ⟨1, _⟩ => show win0_0.index t (1 : Fin 2) * 128 + 1 * k.val = k.val; omega

/-- The weight's block at every point is the whole weight. -/
theorem wblk0 (c : Dev nD) (t : Fin cfg0.N) (k : Fin 128) (q : Fin 128) :
    iblk0 (F := Ideal) V c 1 t (ix2 k q) = V c main_arg3 (ix2 k q) := by
  unfold iblk0
  rw [View.read_apply]
  show V c main_arg3 (((cfg0.win 1).blk t).view.emb (ix2 k q)) = V c main_arg3 _
  congr 1
  obtain ⟨-, -, e2, e3, -⟩ := idx_facts0 t
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-- The bias's block at every point is the whole bias row. -/
theorem bblk0 (c : Dev nD) (t : Fin cfg0.N) (q : Fin 128) :
    iblk0 (F := Ideal) V c 2 t (ix2 (0 : Fin 1) q) = V c main_v16 (ix2 (0 : Fin 1) q) := by
  unfold iblk0
  rw [View.read_apply]
  show V c main_v16 (((cfg0.win 2).blk t).view.emb (ix2 (0 : Fin 1) q)) = V c main_v16 _
  congr 1
  obtain ⟨-, -, -, -, e4, e5, -⟩ := idx_facts0 t
  funext a; apply Fin.ext
  match a with
  | ⟨0, _⟩ => show win0_2.index t (0 : Fin 2) * 1 + 1 * 0 = 0; omega
  | ⟨1, _⟩ => show win0_2.index t (1 : Fin 2) * 128 + 1 * q.val = q.val; omega

/-- Where entry (p, q) of output block t sits in the array: row 5000 t + p, column q. -/
theorem oemb0 (t : Fin cfg0.N) (p : Fin 5000) (q : Fin 128) :
    ((cfg0.win 3).blk t).view.emb (ix2 p q) = (ix2 ⟨5000 * t.val + p.val, row_lt0 t p⟩ q : S50000x128.Idx) := by
  obtain ⟨-, -, -, -, -, -, e6, e7⟩ := idx_facts0 t
  funext a; apply Fin.ext
  match a with
  | ⟨0, _⟩ => show win0_3.index t (0 : Fin 2) * 5000 + 1 * p.val = 5000 * t.val + p.val; omega
  | ⟨1, _⟩ => show win0_3.index t (1 : Fin 2) * 128 + 1 * q.val = q.val; omega

/-- What point t writes back is block t of the stage's result on the arrays the region found. -/
theorem flushed0_eq (c : Dev nD) (t : Fin cfg0.N) :
    (dat0 (F := Ideal) V c).flushed 3 t = ((cfg0.win 3).blk t).view.read (Elt Ideal)
      (denseRelu (V c main_v15) (V c main_arg3) (biasRow128 (V c main_v16))) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  rw [View.read_apply]
  show k0_pay1 (iblk0 V c 0 t) (iblk0 V c 1 t) (iblk0 V c 2 t) (ix2 p q)
    = denseRelu (V c main_v15) (V c main_arg3) (biasRow128 (V c main_v16)) (((cfg0.win 3).blk t).view.emb (ix2 p q))
  refine Eq.trans ?_ (congrArg (denseRelu (V c main_v15) (V c main_arg3) (biasRow128 (V c main_v16))) (oemb0 t p q)).symm
  exact (relu0_apply (iblk0 V c 0 t) (iblk0 V c 1 t) (iblk0 V c 2 t) p q).trans
    (relu_row _ _ _ (V c main_v15) (V c main_arg3) (V c main_v16) ⟨5000 * t.val + p.val, row_lt0 t p⟩ p q
      (fun k => xblk0 V c t p k) (fun k => wblk0 V c t k q) (bblk0 V c t q))

/-- An index of the array is in point t's output block iff each coordinate is in the block's range on its axis. -/
theorem mem_blk0 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v17).slice (win0_3.rect t)).set ↔ _
  rw [View.set_slice_whole, Rect.mem_set_unit]
  exact Iff.rfl

/-- The ten output blocks tile the array: row r is in the block of point r / 5000. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by show _ < grid0.N; rw [N_0]; omega⟩, rfl⟩
  refine ⟨t, flush0_3 t, ?_⟩
  rw [mem_blk0]
  obtain ⟨-, -, -, -, -, -, e6, e7⟩ := idx_facts0 t
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

theorem region0_value (c : Dev nD) :
    (dat0 (F := Ideal) V c).arrAt 3 cfg0.N = denseRelu (V c main_v15) (V c main_arg3) (biasRow128 (V c main_v16)) := by
  exact (dat0 V c).arrAt_eq_of_cover 3 (denseRelu (V c main_v15) (V c main_arg3) (biasRow128 (V c main_v16)))
    (fun t _ => flushed0_eq V c t) (fun i => cover0 i)

/-! ## The second stage -/

/-- The index maps over the ten points: the input and the output move down the rows with the point, the weight and
    the bias stay at the origin. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of block t is a row of the array. -/
theorem row_lt1 (t : Fin cfg1.N) (p : Fin 5000) : 5000 * t.val + p.val < 50000 := by
  have ht : t.val < grid1.N := t.isLt
  rw [N_1] at ht
  have hp := p.isLt
  omega

/-- Entry (p, k) of input block t is the array's entry at row 5000 t + p. -/
theorem xblk1 (c : Dev nD) (t : Fin cfg1.N) (p : Fin 5000) (k : Fin 128) :
    iblk1 (F := Ideal) V c 0 t (ix2 p k) = V c main_v32 (ix2 ⟨5000 * t.val + p.val, row_lt1 t p⟩ k) := by
  unfold iblk1
  rw [View.read_apply]
  show V c main_v32 (((cfg1.win 0).blk t).view.emb (ix2 p k)) = V c main_v32 _
  congr 1
  obtain ⟨e0, e1, -⟩ := idx_facts1 t
  funext a; apply Fin.ext
  match a with
  | ⟨0, _⟩ => show win1_0.index t (0 : Fin 2) * 5000 + 1 * p.val = 5000 * t.val + p.val; omega
  | ⟨1, _⟩ => show win1_0.index t (1 : Fin 2) * 128 + 1 * k.val = k.val; omega

/-- The weight's block at every point is the whole weight. -/
theorem wblk1 (c : Dev nD) (t : Fin cfg1.N) (k : Fin 128) (q : Fin 128) :
    iblk1 (F := Ideal) V c 1 t (ix2 k q) = V c main_arg5 (ix2 k q) := by
  unfold iblk1
  rw [View.read_apply]
  show V c main_arg5 (((cfg1.win 1).blk t).view.emb (ix2 k q)) = V c main_arg5 _
  congr 1
  obtain ⟨-, -, e2, e3, -⟩ := idx_facts1 t
  funext a; apply Fin.ext
  match a with
  | ⟨0, _⟩ => show win1_1.index t (0 : Fin 2) * 128 + 1 * k.val = k.val; omega
  | ⟨1, _⟩ => show win1_1.index t (1 : Fin 2) * 128 + 1 * q.val = q.val; omega

/-- The bias's block at every point is the whole bias row. -/
theorem bblk1 (c : Dev nD) (t : Fin cfg1.N) (q : Fin 128) :
    iblk1 (F := Ideal) V c 2 t (ix2 (0 : Fin 1) q) = V c main_v33 (ix2 (0 : Fin 1) q) := by
  unfold iblk1
  rw [View.read_apply]
  show V c main_v33 (((cfg1.win 2).blk t).view.emb (ix2 (0 : Fin 1) q)) = V c main_v33 _
  congr 1
  obtain ⟨-, -, -, -, e4, e5, -⟩ := idx_facts1 t
  funext a; apply Fin.ext
  match a with
  | ⟨0, _⟩ => show win1_2.index t (0 : Fin 2) * 1 + 1 * 0 = 0; omega
  | ⟨1, _⟩ => show win1_2.index t (1 : Fin 2) * 128 + 1 * q.val = q.val; omega

/-- Where entry (p, q) of output block t sits in the array: row 5000 t + p, column q. -/
theorem oemb1 (t : Fin cfg1.N) (p : Fin 5000) (q : Fin 128) :
    ((cfg1.win 3).blk t).view.emb (ix2 p q) = (ix2 ⟨5000 * t.val + p.val, row_lt1 t p⟩ q : S50000x128.Idx) := by
  obtain ⟨-, -, -, -, -, -, e6, e7⟩ := idx_facts1 t
  funext a; apply Fin.ext
  match a with
  | ⟨0, _⟩ => show win1_3.index t (0 : Fin 2) * 5000 + 1 * p.val = 5000 * t.val + p.val; omega
  | ⟨1, _⟩ => show win1_3.index t (1 : Fin 2) * 128 + 1 * q.val = q.val; omega

/-- What point t writes back is block t of the stage's result on the arrays the region found. -/
theorem flushed1_eq (c : Dev nD) (t : Fin cfg1.N) :
    (dat1 (F := Ideal) V c).flushed 3 t = ((cfg1.win 3).blk t).view.read (Elt Ideal)
      (denseRelu (V c main_v32) (V c main_arg5) (biasRow128 (V c main_v33))) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  rw [View.read_apply]
  show k1_pay1 (iblk1 V c 0 t) (iblk1 V c 1 t) (iblk1 V c 2 t) (ix2 p q)
    = denseRelu (V c main_v32) (V c main_arg5) (biasRow128 (V c main_v33)) (((cfg1.win 3).blk t).view.emb (ix2 p q))
  refine Eq.trans ?_ (congrArg (denseRelu (V c main_v32) (V c main_arg5) (biasRow128 (V c main_v33))) (oemb1 t p q)).symm
  exact (relu1_apply (iblk1 V c 0 t) (iblk1 V c 1 t) (iblk1 V c 2 t) p q).trans
    (relu_row _ _ _ (V c main_v32) (V c main_arg5) (V c main_v33) ⟨5000 * t.val + p.val, row_lt1 t p⟩ p q
      (fun k => xblk1 V c t p k) (fun k => wblk1 V c t k q) (bblk1 V c t q))

/-- An index of the array is in point t's output block iff each coordinate is in the block's range on its axis. -/
theorem mem_blk1 (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v34).slice (win1_3.rect t)).set ↔ _
  rw [View.set_slice_whole, Rect.mem_set_unit]
  exact Iff.rfl

/-- The ten output blocks tile the array: row r is in the block of point r / 5000. -/
theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, by show _ < grid1.N; rw [N_1]; omega⟩, rfl⟩
  refine ⟨t, flush1_3 t, ?_⟩
  rw [mem_blk1]
  obtain ⟨-, -, -, -, -, -, e6, e7⟩ := idx_facts1 t
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

theorem region1_value (c : Dev nD) :
    (dat1 (F := Ideal) V c).arrAt 3 cfg1.N = denseRelu (V c main_v32) (V c main_arg5) (biasRow128 (V c main_v33)) := by
  exact (dat1 V c).arrAt_eq_of_cover 3 (denseRelu (V c main_v32) (V c main_arg5) (biasRow128 (V c main_v33)))
    (fun t _ => flushed1_eq V c t) (fun i => cover1 i)

/-! ## The third stage -/

/-- The index maps over the ten points: the input and the output move down the rows with the point, the weight and
    the bias stay at the origin. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row p of block t is a row of the array. -/
theorem row_lt2 (t : Fin cfg2.N) (p : Fin 5000) : 5000 * t.val + p.val < 50000 := by
  have ht : t.val < grid2.N := t.isLt
  rw [N_2] at ht
  have hp := p.isLt
  omega

/-- Entry (p, k) of input block t is the array's entry at row 5000 t + p. -/
theorem xblk2 (c : Dev nD) (t : Fin cfg2.N) (p : Fin 5000) (k : Fin 128) :
    iblk2 (F := Ideal) V c 0 t (ix2 p k) = V c main_v50 (ix2 ⟨5000 * t.val + p.val, row_lt2 t p⟩ k) := by
  unfold iblk2
  rw [View.read_apply]
  show V c main_v50 (((cfg2.win 0).blk t).view.emb (ix2 p k)) = V c main_v50 _
  congr 1
  obtain ⟨e0, e1, -⟩ := idx_facts2 t
  funext a; apply Fin.ext
  match a with
  | ⟨0, _⟩ => show win2_0.index t (0 : Fin 2) * 5000 + 1 * p.val = 5000 * t.val + p.val; omega
  | ⟨1, _⟩ => show win2_0.index t (1 : Fin 2) * 128 + 1 * k.val = k.val; omega

/-- The weight's block at every point is the whole weight. -/
theorem wblk2 (c : Dev nD) (t : Fin cfg2.N) (k : Fin 128) (q : Fin 128) :
    iblk2 (F := Ideal) V c 1 t (ix2 k q) = V c main_arg7 (ix2 k q) := by
  unfold iblk2
  rw [View.read_apply]
  show V c main_arg7 (((cfg2.win 1).blk t).view.emb (ix2 k q)) = V c main_arg7 _
  congr 1
  obtain ⟨-, -, e2, e3, -⟩ := idx_facts2 t
  funext a; apply Fin.ext
  match a with
  | ⟨0, _⟩ => show win2_1.index t (0 : Fin 2) * 128 + 1 * k.val = k.val; omega
  | ⟨1, _⟩ => show win2_1.index t (1 : Fin 2) * 128 + 1 * q.val = q.val; omega

/-- The bias's block at every point is the whole bias row. -/
theorem bblk2 (c : Dev nD) (t : Fin cfg2.N) (q : Fin 128) :
    iblk2 (F := Ideal) V c 2 t (ix2 (0 : Fin 1) q) = V c main_v51 (ix2 (0 : Fin 1) q) := by
  unfold iblk2
  rw [View.read_apply]
  show V c main_v51 (((cfg2.win 2).blk t).view.emb (ix2 (0 : Fin 1) q)) = V c main_v51 _
  congr 1
  obtain ⟨-, -, -, -, e4, e5, -⟩ := idx_facts2 t
  funext a; apply Fin.ext
  match a with
  | ⟨0, _⟩ => show win2_2.index t (0 : Fin 2) * 1 + 1 * 0 = 0; omega
  | ⟨1, _⟩ => show win2_2.index t (1 : Fin 2) * 128 + 1 * q.val = q.val; omega

/-- Where entry (p, q) of output block t sits in the array: row 5000 t + p, column q. -/
theorem oemb2 (t : Fin cfg2.N) (p : Fin 5000) (q : Fin 128) :
    ((cfg2.win 3).blk t).view.emb (ix2 p q) = (ix2 ⟨5000 * t.val + p.val, row_lt2 t p⟩ q : S50000x128.Idx) := by
  obtain ⟨-, -, -, -, -, -, e6, e7⟩ := idx_facts2 t
  funext a; apply Fin.ext
  match a with
  | ⟨0, _⟩ => show win2_3.index t (0 : Fin 2) * 5000 + 1 * p.val = 5000 * t.val + p.val; omega
  | ⟨1, _⟩ => show win2_3.index t (1 : Fin 2) * 128 + 1 * q.val = q.val; omega

/-- What point t writes back is block t of the stage's result on the arrays the region found. -/
theorem flushed2_eq (c : Dev nD) (t : Fin cfg2.N) :
    (dat2 (F := Ideal) V c).flushed 3 t = ((cfg2.win 3).blk t).view.read (Elt Ideal)
      (denseRelu (V c main_v50) (V c main_arg7) (biasRow128 (V c main_v51))) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  rw [View.read_apply]
  show k2_pay1 (iblk2 V c 0 t) (iblk2 V c 1 t) (iblk2 V c 2 t) (ix2 p q)
    = denseRelu (V c main_v50) (V c main_arg7) (biasRow128 (V c main_v51)) (((cfg2.win 3).blk t).view.emb (ix2 p q))
  refine Eq.trans ?_ (congrArg (denseRelu (V c main_v50) (V c main_arg7) (biasRow128 (V c main_v51))) (oemb2 t p q)).symm
  exact (relu2_apply (iblk2 V c 0 t) (iblk2 V c 1 t) (iblk2 V c 2 t) p q).trans
    (relu_row _ _ _ (V c main_v50) (V c main_arg7) (V c main_v51) ⟨5000 * t.val + p.val, row_lt2 t p⟩ p q
      (fun k => xblk2 V c t p k) (fun k => wblk2 V c t k q) (bblk2 V c t q))

/-- An index of the array is in point t's output block iff each coordinate is in the block's range on its axis. -/
theorem mem_blk2 (t : Fin cfg2.N) (i : S50000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v52).slice (win2_3.rect t)).set ↔ _
  rw [View.set_slice_whole, Rect.mem_set_unit]
  exact Iff.rfl

/-- The ten output blocks tile the array: row r is in the block of point r / 5000. -/
theorem cover2 (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  obtain ⟨t, ht⟩ : ∃ t : Fin cfg2.N, t.val = (i 0).val / 5000 :=
    ⟨⟨(i 0).val / 5000, by show _ < grid2.N; rw [N_2]; omega⟩, rfl⟩
  refine ⟨t, flush2_3 t, ?_⟩
  rw [mem_blk2]
  obtain ⟨-, -, -, -, -, -, e6, e7⟩ := idx_facts2 t
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

theorem region2_value (c : Dev nD) :
    (dat2 (F := Ideal) V c).arrAt 3 cfg2.N = denseRelu (V c main_v50) (V c main_arg7) (biasRow128 (V c main_v51)) := by
  exact (dat2 V c).arrAt_eq_of_cover 3 (denseRelu (V c main_v50) (V c main_arg7) (biasRow128 (V c main_v51)))
    (fun t _ => flushed2_eq V c t) (fun i => cover2 i)

/-! ## The last stage -/

/-- Row p of a block whose rows are rows of the array, against the whole weight and the whole bias: the block's
    affine row is the stage's affine row at the array's row, so its log-softmax is the stage's entry there. -/
theorem lsm_row (X : Vec Ideal S5000x128 .f32) (W : Vec Ideal S128x40 .f32) (B : Vec Ideal S1x40 .f32)
    (x : FVec Ideal ⟨2, ![50000, 128]⟩ .f32) (w : FVec Ideal ⟨2, ![128, 40]⟩ .f32) (b : Vec Ideal S1x40 .f32)
    (r : Fin 50000) (p : Fin 5000) (q : Fin 40)
    (hX : ∀ k : Fin 128, X (ix2 p k) = x (ix2 r k))
    (hW : ∀ (k : Fin 128) (q' : Fin 40), W (ix2 k q') = w (ix2 k q'))
    (hB : ∀ q' : Fin 40, B (ix2 (0 : Fin 1) q') = b (ix2 (0 : Fin 1) q')) :
    lsmRow (blockAffine40 X W B p) q = denseLsm x w (biasRow40 b) (ix2 r q) := by
  have hrow : blockAffine40 X W B p = affine40 x w (biasRow40 b) r := by
    funext q'
    unfold blockAffine40 affine40 biasRow40
    show (∑ k : Fin 128, X (ix2 p k) * W (ix2 k q')) + B (ix2 (0 : Fin 1) q')
      = (∑ k : Fin 128, x (ix2 r k) * w (ix2 k q')) + b (ix2 (0 : Fin 1) q')
    rw [Finset.sum_congr rfl (fun k _ => by rw [hX k, hW k q']), hB q']
  unfold denseLsm
  show lsmRow (blockAffine40 X W B p) q = lsmRow (affine40 x w (biasRow40 b) r) q
  rw [hrow]

/-- The index maps over the ten points: the input and the output move down the rows with the point, the weight and
    the bias stay at the origin. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row p of block t is a row of the array. -/
theorem row_lt3 (t : Fin cfg3.N) (p : Fin 5000) : 5000 * t.val + p.val < 50000 := by
  have ht : t.val < grid3.N := t.isLt
  rw [N_3] at ht
  have hp := p.isLt
  omega

/-- Entry (p, k) of input block t is the array's entry at row 5000 t + p. -/
theorem xblk3 (c : Dev nD) (t : Fin cfg3.N) (p : Fin 5000) (k : Fin 128) :
    iblk3 (F := Ideal) V c 0 t (ix2 p k) = V c main_v67 (ix2 ⟨5000 * t.val + p.val, row_lt3 t p⟩ k) := by
  unfold iblk3
  rw [View.read_apply]
  show V c main_v67 (((cfg3.win 0).blk t).view.emb (ix2 p k)) = V c main_v67 _
  congr 1
  obtain ⟨e0, e1, -⟩ := idx_facts3 t
  funext a; apply Fin.ext
  match a with
  | ⟨0, _⟩ => show win3_0.index t (0 : Fin 2) * 5000 + 1 * p.val = 5000 * t.val + p.val; omega
  | ⟨1, _⟩ => show win3_0.index t (1 : Fin 2) * 128 + 1 * k.val = k.val; omega

/-- The weight's block at every point is the whole weight. -/
theorem wblk3 (c : Dev nD) (t : Fin cfg3.N) (k : Fin 128) (q : Fin 40) :
    iblk3 (F := Ideal) V c 1 t (ix2 k q) = V c main_arg9 (ix2 k q) := by
  unfold iblk3
  rw [View.read_apply]
  show V c main_arg9 (((cfg3.win 1).blk t).view.emb (ix2 k q)) = V c main_arg9 _
  congr 1
  obtain ⟨-, -, e2, e3, -⟩ := idx_facts3 t
  funext a; apply Fin.ext
  match a with
  | ⟨0, _⟩ => show win3_1.index t (0 : Fin 2) * 128 + 1 * k.val = k.val; omega
  | ⟨1, _⟩ => show win3_1.index t (1 : Fin 2) * 40 + 1 * q.val = q.val; omega

/-- The bias's block at every point is the whole bias row. -/
theorem bblk3 (c : Dev nD) (t : Fin cfg3.N) (q : Fin 40) :
    iblk3 (F := Ideal) V c 2 t (ix2 (0 : Fin 1) q) = V c main_v68 (ix2 (0 : Fin 1) q) := by
  unfold iblk3
  rw [View.read_apply]
  show V c main_v68 (((cfg3.win 2).blk t).view.emb (ix2 (0 : Fin 1) q)) = V c main_v68 _
  congr 1
  obtain ⟨-, -, -, -, e4, e5, -⟩ := idx_facts3 t
  funext a; apply Fin.ext
  match a with
  | ⟨0, _⟩ => show win3_2.index t (0 : Fin 2) * 1 + 1 * 0 = 0; omega
  | ⟨1, _⟩ => show win3_2.index t (1 : Fin 2) * 40 + 1 * q.val = q.val; omega

/-- Where entry (p, q) of output block t sits in the array: row 5000 t + p, column q. -/
theorem oemb3 (t : Fin cfg3.N) (p : Fin 5000) (q : Fin 40) :
    ((cfg3.win 3).blk t).view.emb (ix2 p q) = (ix2 ⟨5000 * t.val + p.val, row_lt3 t p⟩ q : S50000x40.Idx) := by
  obtain ⟨-, -, -, -, -, -, e6, e7⟩ := idx_facts3 t
  funext a; apply Fin.ext
  match a with
  | ⟨0, _⟩ => show win3_3.index t (0 : Fin 2) * 5000 + 1 * p.val = 5000 * t.val + p.val; omega
  | ⟨1, _⟩ => show win3_3.index t (1 : Fin 2) * 40 + 1 * q.val = q.val; omega

/-- What point t writes back is block t of the stage's result on the arrays the region found. -/
theorem flushed3_eq (c : Dev nD) (t : Fin cfg3.N) :
    (dat3 (F := Ideal) V c).flushed 3 t = ((cfg3.win 3).blk t).view.read (Elt Ideal)
      (denseLsm (V c main_v67) (V c main_arg9) (biasRow40 (V c main_v68))) := by
  show (cfg3.win 3).cut (grid3.coords t) ((dat3 V c).after 3 t) = _
  rw [after3_3]
  unfold out3_3
  rw [View.canon_unit_zero hz]
  simp only [View.ld_unit_zero (S := S5000x128) hz, View.ld_unit_zero (S := S128x40) hz, View.ld_unit_zero (S := S1x40) hz]
  funext j
  obtain ⟨p, q, rfl⟩ : ∃ (p : Fin 5000) (q : Fin 40), j = ix2 p q := ⟨j 0, j 1, eq_ix2 j⟩
  rw [View.read_apply]
  show k3_pay1 (iblk3 V c 0 t) (iblk3 V c 1 t) (iblk3 V c 2 t) (ix2 p q)
    = denseLsm (V c main_v67) (V c main_arg9) (biasRow40 (V c main_v68)) (((cfg3.win 3).blk t).view.emb (ix2 p q))
  refine Eq.trans ?_ (congrArg (denseLsm (V c main_v67) (V c main_arg9) (biasRow40 (V c main_v68))) (oemb3 t p q)).symm
  exact (lsm3_apply (iblk3 V c 0 t) (iblk3 V c 1 t) (iblk3 V c 2 t) p q).trans
    (lsm_row _ _ _ (V c main_v67) (V c main_arg9) (V c main_v68) ⟨5000 * t.val + p.val, row_lt3 t p⟩ p q
      (fun k => xblk3 V c t p k) (fun k q' => wblk3 V c t k q') (fun q' => bblk3 V c t q'))

/-- An index of the array is in point t's output block iff each coordinate is in the block's range on its axis. -/
theorem mem_blk3 (t : Fin cfg3.N) (i : S50000x40.Idx) :
    i ∈ ((cfg3.win 3).blk t).view.set ↔ ∀ a : Fin 2, win3_3.index t a * S5000x40.size a ≤ (i a).val
      ∧ (i a).val < win3_3.index t a * S5000x40.size a + S5000x40.size a := by
  show i ∈ ((View.whole main_v69).slice (win3_3.rect t)).set ↔ _
  rw [View.set_slice_whole, Rect.mem_set_unit]
  exact Iff.rfl

/-- The ten output blocks tile the array: row r is in the block of point r / 5000. -/
theorem cover3 (i : S50000x40.Idx) :
    ∃ t : Fin cfg3.N, (cfg3.win 3).flush t = true ∧ i ∈ ((cfg3.win 3).blk t).view.set := by
  have hi0 : (i 0).val < 50000 := (i 0).isLt
  have hi1 : (i 1).val < 40 := (i 1).isLt
  obtain ⟨t, ht⟩ : ∃ t : Fin cfg3.N, t.val = (i 0).val / 5000 :=
    ⟨⟨(i 0).val / 5000, by show _ < grid3.N; rw [N_3]; omega⟩, rfl⟩
  refine ⟨t, flush3_3 t, ?_⟩
  rw [mem_blk3]
  obtain ⟨-, -, -, -, -, -, e6, e7⟩ := idx_facts3 t
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 40 ≤ (i 1).val ∧ (i 1).val < win3_3.index t (1 : Fin 2) * 40 + 40; omega

theorem region3_value (c : Dev nD) :
    (dat3 (F := Ideal) V c).arrAt 3 cfg3.N = denseLsm (V c main_v67) (V c main_arg9) (biasRow40 (V c main_v68)) := by
  exact (dat3 V c).arrAt_eq_of_cover 3 (denseLsm (V c main_v67) (V c main_arg9) (biasRow40 (V c main_v68)))
    (fun t _ => flushed3_eq V c t) (fun i => cover3 i)

end Cert.KernelIdeal.Region

end
-- ==== Proof.Result.lean ====
/-
  The whole network as ONE function of the eleven arguments: the ego convolution of the input features, a dense
  stage with the rectifier, the GIN sum, a second such dense stage, the ego convolution again, a third dense stage,
  the GIN sum again, and the last dense stage with the row-wise log-softmax. Both programs end with their result
  array at this function of their arguments; the certificate says so for each and compares nothing else.
-/
import proofs.«111052_j87479893885153_1_alg».proof.Proof.HostChain
import proofs.«111052_j87479893885153_1_alg».proof.Proof.Spec

noncomputable section

namespace Cert.Result

open Cert.KernelIdeal Cert.KernelIdeal.Chain Cert.Spec Idealize.ShloMosaic

/-- The result array [50000, 40] of the network, at the extended reals. -/
def result (x0 : (⟨S50000x128, .f32⟩ : BufTy).Contents (Elt Ideal)) (x1 : (⟨S2x800000, .i32⟩ : BufTy).Contents (Elt Ideal))
    (x2 : (⟨S2x1600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal))
    (x9 : (⟨S128x40, .f32⟩ : BufTy).Contents (Elt Ideal)) (x10 : (⟨S40, .f32⟩ : BufTy).Contents (Elt Ideal)) :
    (⟨S50000x40, .f32⟩ : BufTy).Contents (Elt Ideal) :=
  denseLsm
    (ginSum (F := Ideal)
      (denseRelu
        (egoConv (F := Ideal)
          (denseRelu
            (ginSum (F := Ideal)
              (denseRelu (egoConv (F := Ideal) x0 x2) x3 x4)
              x1)
            x5 x6)
          x2)
        x7 x8)
      x1)
    x9 x10

end Cert.Result

end
-- ==== Proof.KernelWalk.lean ====
/-
  The kernel program's run, read across its boundaries: the result buffer after the fourth dense kernel holds the
  network's function of the launch contents of the eleven arguments.

  Going through @main: a stretch of host operations leaves the ego convolution (or the GIN sum) of what the previous
  dense kernel left, and the next kernel's bias laid out as one row; a dense kernel leaves its stage's function of
  the three arrays it finds; and an argument buffer still holds its launch contents wherever it is read, because
  no host operation writes it and no kernel before that point has it among its arrays.
-/
import proofs.«111052_j87479893885153_1_alg».proof.Proof.Gen.KernelIdeal.Frame
import proofs.«111052_j87479893885153_1_alg».proof.Proof.KernelStretch
import proofs.«111052_j87479893885153_1_alg».proof.Proof.Region
import proofs.«111052_j87479893885153_1_alg».proof.Proof.Result
import Idealize.ShloMosaic.Lib.ValueLayout

set_option maxRecDepth 16384

noncomputable section

namespace Cert.KernelIdeal.Walk

open Cert.KernelIdeal Cert.KernelIdeal.Facts₀ Cert.KernelIdeal.Facts Cert.KernelIdeal.Gen
open Cert.KernelIdeal.Chain Cert.KernelIdeal.Stretch Cert.KernelIdeal.Region Cert.Spec
open Idealize.ShloMosaic Idealize.ShloMosaic.TcCoe Idealize.SL.Sem Idealize.ShloMosaic.ValueIdx

/-! ## A bias laid out as one row and read back as a row vector -/

theorem biasRow128_asRow128 (b : (⟨S128, .f32⟩ : BufTy).Contents (Elt Ideal)) :
    biasRow128 (asRow128 (F := Ideal) b) = b := by
  funext j
  obtain ⟨q, rfl⟩ : ∃ q : Fin 128, j = ix1 q := ⟨j 0, eq_ix1 j⟩
  exact shapeCast_a_1a_apply b Facts₀.shapeCasts_S128_S1x128 (0 : Fin 1) q

theorem biasRow40_asRow40 (b : (⟨S40, .f32⟩ : BufTy).Contents (Elt Ideal)) :
    biasRow40 (asRow40 (F := Ideal) b) = b := by
  funext j
  obtain ⟨q, rfl⟩ : ∃ q : Fin 40, j = ix1 q := ⟨j 0, eq_ix1 j⟩
  exact shapeCast_a_1a_apply b Facts₀.shapeCasts_S40_S1x40 (0 : Fin 1) q

variable (m : (ℓ : Loc nD τ sig) → Buf (Elt Ideal) ℓ) (ρ : Dev nD → PrngReg)

/-! ## An argument buffer at the boundaries: still its launch contents -/

theorem W1_keep (c : Dev nD) (b : Ref sig .tc) (hb : b ∈ argRefs) :
    W1 m ρ c (Proc.devRef .tc b) = m ((c : Thread nD τ).loc b) :=
  (host0_keeps (W0 m ρ c) b hb).trans rfl

theorem W2_keep (c : Dev nD) (b : Ref sig .tc) (hb : b ∈ argRefs) (h0 : ∀ w, Pipeline.arrRef spec0 w ≠ b) :
    W2 m ρ c (Proc.devRef .tc b) = m ((c : Thread nD τ).loc b) :=
  (W2_of_ne m ρ c b h0).trans (W1_keep m ρ c b hb)

theorem W3_keep (c : Dev nD) (b : Ref sig .tc) (hb : b ∈ argRefs) (h0 : ∀ w, Pipeline.arrRef spec0 w ≠ b) :
    W3 m ρ c (Proc.devRef .tc b) = m ((c : Thread nD τ).loc b) :=
  (host1_keeps (W2 m ρ c) b hb).trans (W2_keep m ρ c b hb h0)

theorem W4_keep (c : Dev nD) (b : Ref sig .tc) (hb : b ∈ argRefs) (h0 : ∀ w, Pipeline.arrRef spec0 w ≠ b)
    (h1 : ∀ w, Pipeline.arrRef spec1 w ≠ b) :
    W4 m ρ c (Proc.devRef .tc b) = m ((c : Thread nD τ).loc b) :=
  (W4_of_ne m ρ c b h1).trans (W3_keep m ρ c b hb h0)

theorem W5_keep (c : Dev nD) (b : Ref sig .tc) (hb : b ∈ argRefs) (h0 : ∀ w, Pipeline.arrRef spec0 w ≠ b)
    (h1 : ∀ w, Pipeline.arrRef spec1 w ≠ b) :
    W5 m ρ c (Proc.devRef .tc b) = m ((c : Thread nD τ).loc b) :=
  (host2_keeps (W4 m ρ c) b hb).trans (W4_keep m ρ c b hb h0 h1)

theorem W6_keep (c : Dev nD) (b : Ref sig .tc) (hb : b ∈ argRefs) (h0 : ∀ w, Pipeline.arrRef spec0 w ≠ b)
    (h1 : ∀ w, Pipeline.arrRef spec1 w ≠ b) (h2 : ∀ w, Pipeline.arrRef spec2 w ≠ b) :
    W6 m ρ c (Proc.devRef .tc b) = m ((c : Thread nD τ).loc b) :=
  (W6_of_ne m ρ c b h2).trans (W5_keep m ρ c b hb h0 h1)

theorem W7_keep (c : Dev nD) (b : Ref sig .tc) (hb : b ∈ argRefs) (h0 : ∀ w, Pipeline.arrRef spec0 w ≠ b)
    (h1 : ∀ w, Pipeline.arrRef spec1 w ≠ b) (h2 : ∀ w, Pipeline.arrRef spec2 w ≠ b) :
    W7 m ρ c (Proc.devRef .tc b) = m ((c : Thread nD τ).loc b) :=
  (host3_keeps (W6 m ρ c) b hb).trans (W6_keep m ρ c b hb h0 h1 h2)

/-! ## The four stages -/

/-- After the first dense kernel: the rectified dense stage of the ego convolution of the input features. -/
theorem after_kernel0 (c : Dev nD) :
    W2 m ρ c (Proc.devRef .tc main_v17)
      = denseRelu (egoConv (F := Ideal) (m ((c : Thread nD τ).loc main_arg0)) (m ((c : Thread nD τ).loc main_arg2)))
          (m ((c : Thread nD τ).loc main_arg3)) (m ((c : Thread nD τ).loc main_arg4)) := by
  have e : V1 m ρ c main_v15 = egoConv (F := Ideal) (m ((c : Thread nD τ).loc main_arg0)) (m ((c : Thread nD τ).loc main_arg2)) :=
    host0_conv (W0 m ρ c)
  have b : V1 m ρ c main_v16 = asRow128 (F := Ideal) (m ((c : Thread nD τ).loc main_arg4)) := host0_bias (W0 m ρ c)
  have a : V1 m ρ c main_arg3 = m ((c : Thread nD τ).loc main_arg3) := W1_keep m ρ c main_arg3 (by decide)
  refine (W2_arr m ρ c 3).trans ((region0_value (V1 m ρ) c).trans ?_)
  rw [e, b, a, biasRow128_asRow128]

/-- After the second dense kernel. -/
theorem after_kernel1 (c : Dev nD) :
    W4 m ρ c (Proc.devRef .tc main_v34)
      = denseRelu (ginSum (F := Ideal) (W2 m ρ c (Proc.devRef .tc main_v17)) (m ((c : Thread nD τ).loc main_arg1)))
          (m ((c : Thread nD τ).loc main_arg5)) (m ((c : Thread nD τ).loc main_arg6)) := by
  have a1 : W2 m ρ c (Proc.devRef .tc main_arg1) = m ((c : Thread nD τ).loc main_arg1) :=
    W2_keep m ρ c main_arg1 (by decide) (by decide)
  have a6 : W2 m ρ c (Proc.devRef .tc main_arg6) = m ((c : Thread nD τ).loc main_arg6) :=
    W2_keep m ρ c main_arg6 (by decide) (by decide)
  have g : V3 m ρ c main_v32 = ginSum (F := Ideal) (W2 m ρ c (Proc.devRef .tc main_v17)) (m ((c : Thread nD τ).loc main_arg1)) :=
    (host1_gin (W2 m ρ c)).trans (by rw [a1])
  have b : V3 m ρ c main_v33 = asRow128 (F := Ideal) (m ((c : Thread nD τ).loc main_arg6)) :=
    (host1_bias (W2 m ρ c)).trans (by rw [a6])
  have a : V3 m ρ c main_arg5 = m ((c : Thread nD τ).loc main_arg5) := W3_keep m ρ c main_arg5 (by decide) (by decide)
  refine (W4_arr m ρ c 3).trans ((region1_value (V3 m ρ) c).trans ?_)
  rw [g, b, a, biasRow128_asRow128]

/-- After the third dense kernel. -/
theorem after_kernel2 (c : Dev nD) :
    W6 m ρ c (Proc.devRef .tc main_v52)
      = denseRelu (egoConv (F := Ideal) (W4 m ρ c (Proc.devRef .tc main_v34)) (m ((c : Thread nD τ).loc main_arg2)))
          (m ((c : Thread nD τ).loc main_arg7)) (m ((c : Thread nD τ).loc main_arg8)) := by
  have a2 : W4 m ρ c (Proc.devRef .tc main_arg2) = m ((c : Thread nD τ).loc main_arg2) :=
    W4_keep m ρ c main_arg2 (by decide) (by decide) (by decide)
  have a8 : W4 m ρ c (Proc.devRef .tc main_arg8) = m ((c : Thread nD τ).loc main_arg8) :=
    W4_keep m ρ c main_arg8 (by decide) (by decide) (by decide)
  have e : V5 m ρ c main_v50 = egoConv (F := Ideal) (W4 m ρ c (Proc.devRef .tc main_v34)) (m ((c : Thread nD τ).loc main_arg2)) :=
    (host2_conv (W4 m ρ c)).trans (by rw [a2])
  have b : V5 m ρ c main_v51 = asRow128 (F := Ideal) (m ((c : Thread nD τ).loc main_arg8)) :=
    (host2_bias (W4 m ρ c)).trans (by rw [a8])
  have a : V5 m ρ c main_arg7 = m ((c : Thread nD τ).loc main_arg7) :=
    W5_keep m ρ c main_arg7 (by decide) (by decide) (by decide)
  refine (W6_arr m ρ c 3).trans ((region2_value (V5 m ρ) c).trans ?_)
  rw [e, b, a, biasRow128_asRow128]

/-- After the last dense kernel. -/
theorem after_kernel3 (c : Dev nD) :
    W8 m ρ c (Proc.devRef .tc main_v69)
      = denseLsm (ginSum (F := Ideal) (W6 m ρ c (Proc.devRef .tc main_v52)) (m ((c : Thread nD τ).loc main_arg1)))
          (m ((c : Thread nD τ).loc main_arg9)) (m ((c : Thread nD τ).loc main_arg10)) := by
  have a1 : W6 m ρ c (Proc.devRef .tc main_arg1) = m ((c : Thread nD τ).loc main_arg1) :=
    W6_keep m ρ c main_arg1 (by decide) (by decide) (by decide) (by decide)
  have a10 : W6 m ρ c (Proc.devRef .tc main_arg10) = m ((c : Thread nD τ).loc main_arg10) :=
    W6_keep m ρ c main_arg10 (by decide) (by decide) (by decide) (by decide)
  have g : V7 m ρ c main_v67 = ginSum (F := Ideal) (W6 m ρ c (Proc.devRef .tc main_v52)) (m ((c : Thread nD τ).loc main_arg1)) :=
    (host3_gin (W6 m ρ c)).trans (by rw [a1])
  have b : V7 m ρ c main_v68 = asRow40 (F := Ideal) (m ((c : Thread nD τ).loc main_arg10)) :=
    (host3_bias (W6 m ρ c)).trans (by rw [a10])
  have a : V7 m ρ c main_arg9 = m ((c : Thread nD τ).loc main_arg9) :=
    W7_keep m ρ c main_arg9 (by decide) (by decide) (by decide) (by decide)
  refine (W8_arr m ρ c 3).trans ((region3_value (V7 m ρ) c).trans ?_)
  rw [g, b, a, biasRow40_asRow40]

/-- The result buffer after the run: the network's function of the launch contents of the arguments. -/
theorem value (c : Dev nD) :
    W8 m ρ c (Proc.devRef .tc main_v69)
      = Cert.Result.result (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) := by
  rw [after_kernel3, after_kernel2, after_kernel1, after_kernel0]
  rfl

end Cert.KernelIdeal.Walk

end
-- ==== Proof.RefChunks.lean ====
import proofs.«111052_j87479893885153_1_alg».proof.Proof.RefRun

noncomputable section

namespace Cert.ReferenceIdeal.Stretch

open Cert.ReferenceIdeal Cert.ReferenceIdeal.Gen Idealize.ShloMosaic Idealize.ShloMosaic.TcCoe Idealize.SL.Sem Idealize.ShloMosaic.StableHlo

variable {F : FTy → Type} [FloatOps F]

/-- Operations 1 to 20 of @main: the first ego convolution: gather by the second index row, scatter-add by the first, scale. -/
abbrev egoConv1 : List (HloOp τ sig (Elt F)) :=
  [ unary main_arg2 main_v0 ((extractStridedSlice S1x1600000 ![1, 0] · slices_S2x1600000_S1x1600000_1_0) : (⟨S2x1600000, .i32⟩ : BufTy).Contents (Elt F) → (⟨S1x1600000, .i32⟩ : BufTy).Contents (Elt F)),
    reshape main_v0 main_v1 rfl shapeCasts_S1x1600000_S1600000,
    nullary main_c (constantI S_ 32 0#32),
    unary main_c main_v2 (broadcastInDim S1600000 ![] bcast_S_S1600000 : (⟨S_, .i32⟩ : BufTy).Contents (Elt F) → (⟨S1600000, .i32⟩ : BufTy).Contents (Elt F)),
    binary main_v1 main_v2 main_v3 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 50000#32),
    unary main_c_0 main_v4 (broadcastInDim S1600000 ![] bcast_S_S1600000 : (⟨S_, .i32⟩ : BufTy).Contents (Elt F) → (⟨S1600000, .i32⟩ : BufTy).Contents (Elt F)),
    binary main_v1 main_v4 main_v5 (addi : (⟨S1600000, .i32⟩ : BufTy).Contents (Elt F) → (⟨S1600000, .i32⟩ : BufTy).Contents (Elt F) → (⟨S1600000, .i32⟩ : BufTy).Contents (Elt F)),
    ternary main_v3 main_v5 main_v1 main_v6 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v6 main_v7 (broadcastInDim S1600000x1 ![0] bcast_S1600000_S1600000x1_0 : (⟨S1600000, .i32⟩ : BufTy).Contents (Elt F) → (⟨S1600000x1, .i32⟩ : BufTy).Contents (Elt F)),
    binary main_arg0 main_v7 main_v8 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    unary main_arg2 main_v9 ((extractStridedSlice S1x1600000 ![0, 0] · slices_S2x1600000_S1x1600000_0_0) : (⟨S2x1600000, .i32⟩ : BufTy).Contents (Elt F) → (⟨S1x1600000, .i32⟩ : BufTy).Contents (Elt F)),
    reshape main_v9 main_v10 rfl shapeCasts_S1x1600000_S1600000,
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v10 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v8 main_v13 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    nullary main_cst_1 (constant S_ .f32 0x37A7C5AC#32),
    unary main_cst_1 main_v14 (broadcastInDim S50000x128 ![] bcast_S_S50000x128 : (⟨S_, .f32⟩ : BufTy).Contents (Elt F) → (⟨S50000x128, .f32⟩ : BufTy).Contents (Elt F)),
    binary main_v13 main_v14 main_v15 (mulf : (⟨S50000x128, .f32⟩ : BufTy).Contents (Elt F) → (⟨S50000x128, .f32⟩ : BufTy).Contents (Elt F) → (⟨S50000x128, .f32⟩ : BufTy).Contents (Elt F)) ]

/-- Operations 21 to 27 of @main: the first dense stage with the rectifier. -/
abbrev dense1 : List (HloOp τ sig (Elt F)) :=
  [ binary main_v15 main_arg3 main_v16 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg4 main_v17 (broadcastInDim S1x128 ![1] bcast_S128_S1x128_1 : (⟨S128, .f32⟩ : BufTy).Contents (Elt F) → (⟨S1x128, .f32⟩ : BufTy).Contents (Elt F)),
    unary main_v17 main_v18 (broadcastInDim S50000x128 ![0, 1] bcast_S1x128_S50000x128_0_1 : (⟨S1x128, .f32⟩ : BufTy).Contents (Elt F) → (⟨S50000x128, .f32⟩ : BufTy).Contents (Elt F)),
    binary main_v16 main_v18 main_v19 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v19) (TRef.of (T := ⟨S50000x128, .f32⟩) main_call0_v0) (TRef.of (T := ⟨S50000x128, .f32⟩) main_v20) maximumf ]

/-- Operations 28 to 45 of @main: the first GIN sum: the features plus their scatter-added gather. -/
abbrev ginSum1 : List (HloOp τ sig (Elt F)) :=
  [ unary main_arg1 main_v21 ((extractStridedSlice S1x800000 ![0, 0] · slices_S2x800000_S1x800000_0_0) : (⟨S2x800000, .i32⟩ : BufTy).Contents (Elt F) → (⟨S1x800000, .i32⟩ : BufTy).Contents (Elt F)),
    reshape main_v21 main_v22 rfl shapeCasts_S1x800000_S800000,
    nullary main_c_2 (constantI S_ 32 0#32),
    unary main_c_2 main_v23 (broadcastInDim S800000 ![] bcast_S_S800000 : (⟨S_, .i32⟩ : BufTy).Contents (Elt F) → (⟨S800000, .i32⟩ : BufTy).Contents (Elt F)),
    binary main_v22 main_v23 main_v24 (cmpi .slt : (⟨S800000, .i32⟩ : BufTy).Contents (Elt F) → (⟨S800000, .i32⟩ : BufTy).Contents (Elt F) → (⟨S800000, .i1⟩ : BufTy).Contents (Elt F)),
    nullary main_c_3 (constantI S_ 32 50000#32),
    unary main_c_3 main_v25 (broadcastInDim S800000 ![] bcast_S_S800000 : (⟨S_, .i32⟩ : BufTy).Contents (Elt F) → (⟨S800000, .i32⟩ : BufTy).Contents (Elt F)),
    binary main_v22 main_v25 main_v26 (addi : (⟨S800000, .i32⟩ : BufTy).Contents (Elt F) → (⟨S800000, .i32⟩ : BufTy).Contents (Elt F) → (⟨S800000, .i32⟩ : BufTy).Contents (Elt F)),
    ternary main_v24 main_v26 main_v22 main_v27 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v27 main_v28 (broadcastInDim S800000x1 ![0] bcast_S800000_S800000x1_0 : (⟨S800000, .i32⟩ : BufTy).Contents (Elt F) → (⟨S800000x1, .i32⟩ : BufTy).Contents (Elt F)),
    binary main_v20 main_v28 main_v29 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_arg1 main_v30 ((extractStridedSlice S1x800000 ![1, 0] · slices_S2x800000_S1x800000_1_0) : (⟨S2x800000, .i32⟩ : BufTy).Contents (Elt F) → (⟨S1x800000, .i32⟩ : BufTy).Contents (Elt F)),
    reshape main_v30 main_v31 rfl shapeCasts_S1x800000_S800000,
    nullary main_cst_4 (constant S_ .f32 0x00000000#32),
    unary main_cst_4 main_v32 (broadcastInDim S50000x128 ![] bcast_S_S50000x128 : (⟨S_, .f32⟩ : BufTy).Contents (Elt F) → (⟨S50000x128, .f32⟩ : BufTy).Contents (Elt F)),
    unary main_v31 main_v33 (broadcastInDim S800000x1 ![0] bcast_S800000_S800000x1_0 : (⟨S800000, .i32⟩ : BufTy).Contents (Elt F) → (⟨S800000x1, .i32⟩ : BufTy).Contents (Elt F)),
    ternary main_v32 main_v33 main_v29 main_v34 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v20 main_v34 main_v35 (addf : (⟨S50000x128, .f32⟩ : BufTy).Contents (Elt F) → (⟨S50000x128, .f32⟩ : BufTy).Contents (Elt F) → (⟨S50000x128, .f32⟩ : BufTy).Contents (Elt F)) ]

/-- Operations 46 to 52 of @main: the second dense stage with the rectifier. -/
abbrev dense2 : List (HloOp τ sig (Elt F)) :=
  [ binary main_v35 main_arg5 main_v36 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v37 (broadcastInDim S1x128 ![1] bcast_S128_S1x128_1 : (⟨S128, .f32⟩ : BufTy).Contents (Elt F) → (⟨S1x128, .f32⟩ : BufTy).Contents (Elt F)),
    unary main_v37 main_v38 (broadcastInDim S50000x128 ![0, 1] bcast_S1x128_S50000x128_0_1 : (⟨S1x128, .f32⟩ : BufTy).Contents (Elt F) → (⟨S50000x128, .f32⟩ : BufTy).Contents (Elt F)),
    binary main_v36 main_v38 main_v39 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v39) (TRef.of (T := ⟨S50000x128, .f32⟩) main_call1_v0) (TRef.of (T := ⟨S50000x128, .f32⟩) main_v40) maximumf ]

/-- Operations 53 to 72 of @main: the second ego convolution. -/
abbrev egoConv2 : List (HloOp τ sig (Elt F)) :=
  [ unary main_arg2 main_v41 ((extractStridedSlice S1x1600000 ![1, 0] · slices_S2x1600000_S1x1600000_1_0) : (⟨S2x1600000, .i32⟩ : BufTy).Contents (Elt F) → (⟨S1x1600000, .i32⟩ : BufTy).Contents (Elt F)),
    reshape main_v41 main_v42 rfl shapeCasts_S1x1600000_S1600000,
    nullary main_c_5 (constantI S_ 32 0#32),
    unary main_c_5 main_v43 (broadcastInDim S1600000 ![] bcast_S_S1600000 : (⟨S_, .i32⟩ : BufTy).Contents (Elt F) → (⟨S1600000, .i32⟩ : BufTy).Contents (Elt F)),
    binary main_v42 main_v43 main_v44 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 50000#32),
    unary main_c_6 main_v45 (broadcastInDim S1600000 ![] bcast_S_S1600000 : (⟨S_, .i32⟩ : BufTy).Contents (Elt F) → (⟨S1600000, .i32⟩ : BufTy).Contents (Elt F)),
    binary main_v42 main_v45 main_v46 (addi : (⟨S1600000, .i32⟩ : BufTy).Contents (Elt F) → (⟨S1600000, .i32⟩ : BufTy).Contents (Elt F) → (⟨S1600000, .i32⟩ : BufTy).Contents (Elt F)),
    ternary main_v44 main_v46 main_v42 main_v47 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v47 main_v48 (broadcastInDim S1600000x1 ![0] bcast_S1600000_S1600000x1_0 : (⟨S1600000, .i32⟩ : BufTy).Contents (Elt F) → (⟨S1600000x1, .i32⟩ : BufTy).Contents (Elt F)),
    binary main_v40 main_v48 main_v49 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    unary main_arg2 main_v50 ((extractStridedSlice S1x1600000 ![0, 0] · slices_S2x1600000_S1x1600000_0_0) : (⟨S2x1600000, .i32⟩ : BufTy).Contents (Elt F) → (⟨S1x1600000, .i32⟩ : BufTy).Contents (Elt F)),
    reshape main_v50 main_v51 rfl shapeCasts_S1x1600000_S1600000,
    nullary main_cst_7 (constant S_ .f32 0x00000000#32),
    unary main_cst_7 main_v52 (broadcastInDim S50000x128 ![] bcast_S_S50000x128 : (⟨S_, .f32⟩ : BufTy).Contents (Elt F) → (⟨S50000x128, .f32⟩ : BufTy).Contents (Elt F)),
    unary main_v51 main_v53 (broadcastInDim S1600000x1 ![0] bcast_S1600000_S1600000x1_0 : (⟨S1600000, .i32⟩ : BufTy).Contents (Elt F) → (⟨S1600000x1, .i32⟩ : BufTy).Contents (Elt F)),
    ternary main_v52 main_v53 main_v49 main_v54 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    nullary main_cst_8 (constant S_ .f32 0x37A7C5AC#32),
    unary main_cst_8 main_v55 (broadcastInDim S50000x128 ![] bcast_S_S50000x128 : (⟨S_, .f32⟩ : BufTy).Contents (Elt F) → (⟨S50000x128, .f32⟩ : BufTy).Contents (Elt F)),
    binary main_v54 main_v55 main_v56 (mulf : (⟨S50000x128, .f32⟩ : BufTy).Contents (Elt F) → (⟨S50000x128, .f32⟩ : BufTy).Contents (Elt F) → (⟨S50000x128, .f32⟩ : BufTy).Contents (Elt F)) ]

/-- Operations 73 to 79 of @main: the third dense stage with the rectifier. -/
abbrev dense3 : List (HloOp τ sig (Elt F)) :=
  [ binary main_v56 main_arg7 main_v57 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg8 main_v58 (broadcastInDim S1x128 ![1] bcast_S128_S1x128_1 : (⟨S128, .f32⟩ : BufTy).Contents (Elt F) → (⟨S1x128, .f32⟩ : BufTy).Contents (Elt F)),
    unary main_v58 main_v59 (broadcastInDim S50000x128 ![0, 1] bcast_S1x128_S50000x128_0_1 : (⟨S1x128, .f32⟩ : BufTy).Contents (Elt F) → (⟨S50000x128, .f32⟩ : BufTy).Contents (Elt F)),
    binary main_v57 main_v59 main_v60 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v60) (TRef.of (T := ⟨S50000x128, .f32⟩) main_call2_v0) (TRef.of (T := ⟨S50000x128, .f32⟩) main_v61) maximumf ]

/-- Operations 80 to 97 of @main: the second GIN sum. -/
abbrev ginSum2 : List (HloOp τ sig (Elt F)) :=
  [ unary main_arg1 main_v62 ((extractStridedSlice S1x800000 ![0, 0] · slices_S2x800000_S1x800000_0_0) : (⟨S2x800000, .i32⟩ : BufTy).Contents (Elt F) → (⟨S1x800000, .i32⟩ : BufTy).Contents (Elt F)),
    reshape main_v62 main_v63 rfl shapeCasts_S1x800000_S800000,
    nullary main_c_9 (constantI S_ 32 0#32),
    unary main_c_9 main_v64 (broadcastInDim S800000 ![] bcast_S_S800000 : (⟨S_, .i32⟩ : BufTy).Contents (Elt F) → (⟨S800000, .i32⟩ : BufTy).Contents (Elt F)),
    binary main_v63 main_v64 main_v65 (cmpi .slt : (⟨S800000, .i32⟩ : BufTy).Contents (Elt F) → (⟨S800000, .i32⟩ : BufTy).Contents (Elt F) → (⟨S800000, .i1⟩ : BufTy).Contents (Elt F)),
    nullary main_c_10 (constantI S_ 32 50000#32),
    unary main_c_10 main_v66 (broadcastInDim S800000 ![] bcast_S_S800000 : (⟨S_, .i32⟩ : BufTy).Contents (Elt F) → (⟨S800000, .i32⟩ : BufTy).Contents (Elt F)),
    binary main_v63 main_v66 main_v67 (addi : (⟨S800000, .i32⟩ : BufTy).Contents (Elt F) → (⟨S800000, .i32⟩ : BufTy).Contents (Elt F) → (⟨S800000, .i32⟩ : BufTy).Contents (Elt F)),
    ternary main_v65 main_v67 main_v63 main_v68 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v68 main_v69 (broadcastInDim S800000x1 ![0] bcast_S800000_S800000x1_0 : (⟨S800000, .i32⟩ : BufTy).Contents (Elt F) → (⟨S800000x1, .i32⟩ : BufTy).Contents (Elt F)),
    binary main_v61 main_v69 main_v70 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_arg1 main_v71 ((extractStridedSlice S1x800000 ![1, 0] · slices_S2x800000_S1x800000_1_0) : (⟨S2x800000, .i32⟩ : BufTy).Contents (Elt F) → (⟨S1x800000, .i32⟩ : BufTy).Contents (Elt F)),
    reshape main_v71 main_v72 rfl shapeCasts_S1x800000_S800000,
    nullary main_cst_11 (constant S_ .f32 0x00000000#32),
    unary main_cst_11 main_v73 (broadcastInDim S50000x128 ![] bcast_S_S50000x128 : (⟨S_, .f32⟩ : BufTy).Contents (Elt F) → (⟨S50000x128, .f32⟩ : BufTy).Contents (Elt F)),
    unary main_v72 main_v74 (broadcastInDim S800000x1 ![0] bcast_S800000_S800000x1_0 : (⟨S800000, .i32⟩ : BufTy).Contents (Elt F) → (⟨S800000x1, .i32⟩ : BufTy).Contents (Elt F)),
    ternary main_v73 main_v74 main_v70 main_v75 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v61 main_v75 main_v76 (addf : (⟨S50000x128, .f32⟩ : BufTy).Contents (Elt F) → (⟨S50000x128, .f32⟩ : BufTy).Contents (Elt F) → (⟨S50000x128, .f32⟩ : BufTy).Contents (Elt F)) ]

/-- Operations 98 to 116 of @main: the last dense stage with the row-wise log-softmax. -/
abbrev denseLsm : List (HloOp τ sig (Elt F)) :=
  [ binary main_v76 main_arg9 main_v77 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    unary main_arg10 main_v78 (broadcastInDim S1x40 ![1] bcast_S40_S1x40_1 : (⟨S40, .f32⟩ : BufTy).Contents (Elt F) → (⟨S1x40, .f32⟩ : BufTy).Contents (Elt F)),
    unary main_v78 main_v79 (broadcastInDim S50000x40 ![0, 1] bcast_S1x40_S50000x40_0_1 : (⟨S1x40, .f32⟩ : BufTy).Contents (Elt F) → (⟨S50000x40, .f32⟩ : BufTy).Contents (Elt F)),
    binary main_v77 main_v79 main_v80 (addf : (⟨S50000x40, .f32⟩ : BufTy).Contents (Elt F) → (⟨S50000x40, .f32⟩ : BufTy).Contents (Elt F) → (⟨S50000x40, .f32⟩ : BufTy).Contents (Elt F)),
    TRef.nullary (TRef.of (T := ⟨S_, .f32⟩) main_call3_cst) (constant S_ .f32 0xFF800000#32),
    TRef.binary (TRef.of (T := ⟨S50000x40, .f32⟩) main_v80) (TRef.of (T := ⟨S_, .f32⟩) main_call3_cst) (TRef.of (T := ⟨S50000, .f32⟩) main_call3_v0) (fun x v => Host.reduce FloatOps.maximumf x v reducesTo_S50000x40_S50000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_call3_v0) (TRef.of (T := ⟨S50000, .f32⟩) main_call3_v2) maximumf,
    TRef.unary (TRef.of (T := ⟨S50000, .f32⟩) main_call3_v2) (TRef.of (T := ⟨S50000x1, .f32⟩) main_call3_v3) (broadcastInDim S50000x1 ![0] bcast_S50000_S50000x1_0),
    TRef.unary (TRef.of (T := ⟨S50000x1, .f32⟩) main_call3_v3) (TRef.of (T := ⟨S50000x40, .f32⟩) main_call3_v4) (broadcastInDim S50000x40 ![0, 1] bcast_S50000x1_S50000x40_0_1),
    TRef.binary (TRef.of (T := ⟨S50000x40, .f32⟩) main_v80) (TRef.of (T := ⟨S50000x40, .f32⟩) main_call3_v4) (TRef.of (T := ⟨S50000x40, .f32⟩) main_call3_v5) subf,
    TRef.unary (TRef.of (T := ⟨S50000x40, .f32⟩) main_call3_v5) (TRef.of (T := ⟨S50000x40, .f32⟩) main_call3_v6) Host.exp,
    TRef.nullary (TRef.of (T := ⟨S_, .f32⟩) main_call3_cst_1) (constant S_ .f32 0x00000000#32),
    TRef.binary (TRef.of (T := ⟨S50000x40, .f32⟩) main_call3_v6) (TRef.of (T := ⟨S_, .f32⟩) main_call3_cst_1) (TRef.of (T := ⟨S50000, .f32⟩) main_call3_v7) (fun x v => Host.reduceAdd x v reducesTo_S50000x40_S50000_d1 h_S_),
    TRef.unary (TRef.of (T := ⟨S50000, .f32⟩) main_call3_v7) (TRef.of (T := ⟨S50000x1, .f32⟩) main_call3_v8) (broadcastInDim S50000x1 ![0] bcast_S50000_S50000x1_0),
    TRef.unary (TRef.of (T := ⟨S50000x1, .f32⟩) main_call3_v8) (TRef.of (T := ⟨S50000x1, .f32⟩) main_call3_v9) Host.log,
    TRef.unary (TRef.of (T := ⟨S50000x1, .f32⟩) main_call3_v9) (TRef.of (T := ⟨S50000x40, .f32⟩) main_call3_v10) (broadcastInDim S50000x40 ![0, 1] bcast_S50000x1_S50000x40_0_1),
    TRef.binary (TRef.of (T := ⟨S50000x40, .f32⟩) main_call3_v5) (TRef.of (T := ⟨S50000x40, .f32⟩) main_call3_v10) (TRef.of (T := ⟨S50000x40, .f32⟩) main_v81) subf ]

/-- Operations 98 to 101 of @main, inside the last stretch: the affine array of the last stage. -/
abbrev lsmAffine : List (HloOp τ sig (Elt F)) :=
  [ binary main_v76 main_arg9 main_v77 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    unary main_arg10 main_v78 (broadcastInDim S1x40 ![1] bcast_S40_S1x40_1 : (⟨S40, .f32⟩ : BufTy).Contents (Elt F) → (⟨S1x40, .f32⟩ : BufTy).Contents (Elt F)),
    unary main_v78 main_v79 (broadcastInDim S50000x40 ![0, 1] bcast_S1x40_S50000x40_0_1 : (⟨S1x40, .f32⟩ : BufTy).Contents (Elt F) → (⟨S50000x40, .f32⟩ : BufTy).Contents (Elt F)),
    binary main_v77 main_v79 main_v80 (addf : (⟨S50000x40, .f32⟩ : BufTy).Contents (Elt F) → (⟨S50000x40, .f32⟩ : BufTy).Contents (Elt F) → (⟨S50000x40, .f32⟩ : BufTy).Contents (Elt F)) ]

/-- Operations 102 to 106 of @main, inside the last stretch: every row's maximum, and the maximum with minus infinity. -/
abbrev lsmRowMax : List (HloOp τ sig (Elt F)) :=
  [ TRef.nullary (TRef.of (T := ⟨S_, .f32⟩) main_call3_cst) (constant S_ .f32 0xFF800000#32),
    TRef.binary (TRef.of (T := ⟨S50000x40, .f32⟩) main_v80) (TRef.of (T := ⟨S_, .f32⟩) main_call3_cst) (TRef.of (T := ⟨S50000, .f32⟩) main_call3_v0) (fun x v => Host.reduce FloatOps.maximumf x v reducesTo_S50000x40_S50000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_call3_v0) (TRef.of (T := ⟨S50000, .f32⟩) main_call3_v2) maximumf ]

/-- Operations 107 to 109 of @main, inside the last stretch: the rows minus their maxima. -/
abbrev lsmShift : List (HloOp τ sig (Elt F)) :=
  [ TRef.unary (TRef.of (T := ⟨S50000, .f32⟩) main_call3_v2) (TRef.of (T := ⟨S50000x1, .f32⟩) main_call3_v3) (broadcastInDim S50000x1 ![0] bcast_S50000_S50000x1_0),
    TRef.unary (TRef.of (T := ⟨S50000x1, .f32⟩) main_call3_v3) (TRef.of (T := ⟨S50000x40, .f32⟩) main_call3_v4) (broadcastInDim S50000x40 ![0, 1] bcast_S50000x1_S50000x40_0_1),
    TRef.binary (TRef.of (T := ⟨S50000x40, .f32⟩) main_v80) (TRef.of (T := ⟨S50000x40, .f32⟩) main_call3_v4) (TRef.of (T := ⟨S50000x40, .f32⟩) main_call3_v5) subf ]

/-- Operations 110 to 116 of @main, inside the last stretch: the exponentials summed along the rows, the logarithm, and the difference. -/
abbrev lsmTail : List (HloOp τ sig (Elt F)) :=
  [ TRef.unary (TRef.of (T := ⟨S50000x40, .f32⟩) main_call3_v5) (TRef.of (T := ⟨S50000x40, .f32⟩) main_call3_v6) Host.exp,
    TRef.nullary (TRef.of (T := ⟨S_, .f32⟩) main_call3_cst_1) (constant S_ .f32 0x00000000#32),
    TRef.binary (TRef.of (T := ⟨S50000x40, .f32⟩) main_call3_v6) (TRef.of (T := ⟨S_, .f32⟩) main_call3_cst_1) (TRef.of (T := ⟨S50000, .f32⟩) main_call3_v7) (fun x v => Host.reduceAdd x v reducesTo_S50000x40_S50000_d1 h_S_),
    TRef.unary (TRef.of (T := ⟨S50000, .f32⟩) main_call3_v7) (TRef.of (T := ⟨S50000x1, .f32⟩) main_call3_v8) (broadcastInDim S50000x1 ![0] bcast_S50000_S50000x1_0),
    TRef.unary (TRef.of (T := ⟨S50000x1, .f32⟩) main_call3_v8) (TRef.of (T := ⟨S50000x1, .f32⟩) main_call3_v9) Host.log,
    TRef.unary (TRef.of (T := ⟨S50000x1, .f32⟩) main_call3_v9) (TRef.of (T := ⟨S50000x40, .f32⟩) main_call3_v10) (broadcastInDim S50000x40 ![0, 1] bcast_S50000x1_S50000x40_0_1),
    TRef.binary (TRef.of (T := ⟨S50000x40, .f32⟩) main_call3_v5) (TRef.of (T := ⟨S50000x40, .f32⟩) main_call3_v10) (TRef.of (T := ⟨S50000x40, .f32⟩) main_v81) subf ]

/-- The last stretch is its four pieces in order. -/
theorem denseLsm_eq : (denseLsm (F := F)) = lsmAffine (F := F) ++ (lsmRowMax (F := F) ++ (lsmShift (F := F) ++ lsmTail (F := F))) := rfl

set_option maxRecDepth 8192 in
/-- @main's operation list is the eight stretches in order. -/
theorem ops_eq : (Cert.ReferenceIdeal.ValueP.ops (F := F)) = egoConv1 (F := F) ++ (dense1 (F := F) ++ (ginSum1 (F := F) ++ (dense2 (F := F) ++ (egoConv2 (F := F) ++ (dense3 (F := F) ++ (ginSum2 (F := F) ++ (denseLsm (F := F)))))))) := rfl

end Cert.ReferenceIdeal.Stretch

end
-- ==== Proof.RefDense.lean ====
/-
  The reference's dense stages as it composes them on the host, as functions of a feature array, a weight matrix and a
  bias vector: a general matrix product, the bias broadcast along the rows, and either the maximum with zero or the
  row-wise log-softmax (row maximum from minus infinity, and once more the maximum with minus infinity; the shifted
  rows; their exponentials summed from zero; the logarithm; the difference). At the extended reals these are the
  specification's functions, entry by entry: the product is the contraction sum, the two broadcasts read the bias at
  the column, the reductions are the row's maximum and sum, and the extra maximum with the lower end changes nothing.
-/
import proofs.«111052_j87479893885153_1_alg».proof.Proof.Gen.ReferenceIdeal
import proofs.«111052_j87479893885153_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.Dense

open Cert.ReferenceIdeal Cert.ReferenceIdeal.Facts₀ Cert.ReferenceIdeal.Facts Idealize.ShloMosaic Idealize.ShloMosaic.ValueIdx Cert.Spec

variable {F : FTy → Type} [FloatOps F]

/-- A dense stage with the rectifier, as the reference's host operations compose it. -/
def dense128 (a : (⟨S50000x128, .f32⟩ : BufTy).Contents (Elt F)) (w : (⟨S128x128, .f32⟩ : BufTy).Contents (Elt F))
    (b : (⟨S128, .f32⟩ : BufTy).Contents (Elt F)) : (⟨S50000x128, .f32⟩ : BufTy).Contents (Elt F) :=
  maximumf
    (addf (Host.dotGeneral dot_S50000x128_S128x128_S50000x128_1_0_0_1_n_n none a w)
      (broadcastInDim S50000x128 ![0, 1] bcast_S1x128_S50000x128_0_1 (broadcastInDim S1x128 ![1] bcast_S128_S1x128_1 b)))
    (broadcastInDim S50000x128 ![] bcast_S_S50000x128 (constant (F := F) S_ .f32 0x00000000#32))

/-- The affine part of the last stage. -/
def logits40 (a : (⟨S50000x128, .f32⟩ : BufTy).Contents (Elt F)) (w : (⟨S128x40, .f32⟩ : BufTy).Contents (Elt F))
    (b : (⟨S40, .f32⟩ : BufTy).Contents (Elt F)) : (⟨S50000x40, .f32⟩ : BufTy).Contents (Elt F) :=
  addf (Host.dotGeneral dot_S50000x128_S128x40_S50000x40_1_0_0_1_n_n none a w)
    (broadcastInDim S50000x40 ![0, 1] bcast_S1x40_S50000x40_0_1 (broadcastInDim S1x40 ![1] bcast_S40_S1x40_1 b))

/-- Every row's maximum, folded from minus infinity, and once more the maximum with minus infinity. -/
def rowMaxes (y : (⟨S50000x40, .f32⟩ : BufTy).Contents (Elt F)) : (⟨S50000, .f32⟩ : BufTy).Contents (Elt F) :=
  maximumf (broadcastInDim S50000 ![] bcast_S_S50000 (constant (F := F) S_ .f32 0xFF800000#32))
    (Host.reduce FloatOps.maximumf y (constant (F := F) S_ .f32 0xFF800000#32) reducesTo_S50000x40_S50000_d1 h_S_)

/-- Every row minus its maximum. -/
def shiftRows (y : (⟨S50000x40, .f32⟩ : BufTy).Contents (Elt F)) : (⟨S50000x40, .f32⟩ : BufTy).Contents (Elt F) :=
  subf y (broadcastInDim S50000x40 ![0, 1] bcast_S50000x1_S50000x40_0_1
    (broadcastInDim S50000x1 ![0] bcast_S50000_S50000x1_0 (rowMaxes (F := F) y)))

/-- The row-wise log-softmax of an array of 40-wide rows. -/
def logSoftmaxRows (y : (⟨S50000x40, .f32⟩ : BufTy).Contents (Elt F)) : (⟨S50000x40, .f32⟩ : BufTy).Contents (Elt F) :=
  subf (shiftRows (F := F) y) (broadcastInDim S50000x40 ![0, 1] bcast_S50000x1_S50000x40_0_1
    (Host.log (broadcastInDim S50000x1 ![0] bcast_S50000_S50000x1_0
      (Host.reduceAdd (Host.exp (shiftRows (F := F) y)) (constant (F := F) S_ .f32 0x00000000#32) reducesTo_S50000x40_S50000_d1 h_S_))))

/-- The last dense stage, as the reference's host operations compose it. -/
def lsm40 (a : (⟨S50000x128, .f32⟩ : BufTy).Contents (Elt F)) (w : (⟨S128x40, .f32⟩ : BufTy).Contents (Elt F))
    (b : (⟨S40, .f32⟩ : BufTy).Contents (Elt F)) : (⟨S50000x40, .f32⟩ : BufTy).Contents (Elt F) :=
  logSoftmaxRows (F := F) (logits40 (F := F) a w b)

/-! ## The general product, read at an entry -/

theorem lhs128_0 (i : S50000x128.Idx) (c : dot_S50000x128_S128x128_S50000x128_1_0_0_1_n_n.contr.Idx) :
    (dot_S50000x128_S128x128_S50000x128_1_0_0_1_n_n.lhsIdx i c 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem lhs128_1 (i : S50000x128.Idx) (c : dot_S50000x128_S128x128_S50000x128_1_0_0_1_n_n.contr.Idx) :
    (dot_S50000x128_S128x128_S50000x128_1_0_0_1_n_n.lhsIdx i c 1).val = (c ⟨0, by decide⟩).val :=
  dot_S50000x128_S128x128_S50000x128_1_0_0_1_n_n.lhsIdx_val_of_single rfl i c
theorem rhs128_0 (i : S50000x128.Idx) (c : dot_S50000x128_S128x128_S50000x128_1_0_0_1_n_n.contr.Idx) :
    (dot_S50000x128_S128x128_S50000x128_1_0_0_1_n_n.rhsIdx i c 0).val = (c ⟨0, by decide⟩).val :=
  dot_S50000x128_S128x128_S50000x128_1_0_0_1_n_n.rhsIdx_val_of_single rfl i c
theorem rhs128_1 (i : S50000x128.Idx) (c : dot_S50000x128_S128x128_S50000x128_1_0_0_1_n_n.contr.Idx) :
    (dot_S50000x128_S128x128_S50000x128_1_0_0_1_n_n.rhsIdx i c 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The 128-column general product at row r and column q: the contraction sum over the 128 shared coordinates. -/
theorem dot128_apply (a : FVec Ideal S50000x128 .f32) (w : FVec Ideal S128x128 .f32) (r : Fin 50000) (q : Fin 128) :
    Host.dotGeneral dot_S50000x128_S128x128_S50000x128_1_0_0_1_n_n none a w (ix2 r q) = ∑ k : Fin 128, a (ix2 r k) * w (ix2 k q) := by
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 r q) ((contrEquiv1 dot_S50000x128_S128x128_S50000x128_1_0_0_1_n_n 128 rfl rfl).symm k) = ix2 r k := funext fun a => Fin.ext (by
    match a with
    | ⟨0, _⟩ => exact lhs128_0 _ _
    | ⟨1, _⟩ => exact (lhs128_1 _ _).trans hk)
  have er : dot_S50000x128_S128x128_S50000x128_1_0_0_1_n_n.rhsIdx (ix2 r q) ((contrEquiv1 dot_S50000x128_S128x128_S50000x128_1_0_0_1_n_n 128 rfl rfl).symm k) = ix2 k q := funext fun a => Fin.ext (by
    match a with
    | ⟨0, _⟩ => exact (rhs128_0 _ _).trans hk
    | ⟨1, _⟩ => exact rhs128_1 _ _)
  rw [el, er]

theorem lhs40_0 (i : S50000x40.Idx) (c : dot_S50000x128_S128x40_S50000x40_1_0_0_1_n_n.contr.Idx) :
    (dot_S50000x128_S128x40_S50000x40_1_0_0_1_n_n.lhsIdx i c 0).val = (i 0).val := by
  unfold DotDims.lhsIdx
  rw [dif_neg (show ¬(0 : Fin S50000x128.rank) ∈ dot_S50000x128_S128x40_S50000x40_1_0_0_1_n_n.lhsBatch by decide), dif_pos (show (0 : Fin S50000x128.rank) ∈ dot_S50000x128_S128x40_S50000x40_1_0_0_1_n_n.lhsNonContracting by decide)]
  rfl
theorem lhs40_1 (i : S50000x40.Idx) (c : dot_S50000x128_S128x40_S50000x40_1_0_0_1_n_n.contr.Idx) :
    (dot_S50000x128_S128x40_S50000x40_1_0_0_1_n_n.lhsIdx i c 1).val = (c ⟨0, by decide⟩).val :=
  dot_S50000x128_S128x40_S50000x40_1_0_0_1_n_n.lhsIdx_val_of_single rfl i c
theorem rhs40_0 (i : S50000x40.Idx) (c : dot_S50000x128_S128x40_S50000x40_1_0_0_1_n_n.contr.Idx) :
    (dot_S50000x128_S128x40_S50000x40_1_0_0_1_n_n.rhsIdx i c 0).val = (c ⟨0, by decide⟩).val :=
  dot_S50000x128_S128x40_S50000x40_1_0_0_1_n_n.rhsIdx_val_of_single rfl i c
theorem rhs40_1 (i : S50000x40.Idx) (c : dot_S50000x128_S128x40_S50000x40_1_0_0_1_n_n.contr.Idx) :
    (dot_S50000x128_S128x40_S50000x40_1_0_0_1_n_n.rhsIdx i c 1).val = (i 1).val := by
  unfold DotDims.rhsIdx
  rw [dif_neg (show ¬(1 : Fin S128x40.rank) ∈ dot_S50000x128_S128x40_S50000x40_1_0_0_1_n_n.rhsBatch by decide), dif_pos (show (1 : Fin S128x40.rank) ∈ dot_S50000x128_S128x40_S50000x40_1_0_0_1_n_n.rhsNonContracting by decide)]
  rfl

/-- The 40-column general product at row r and column q: the contraction sum over the 128 shared coordinates. -/
theorem dot40_apply (a : FVec Ideal S50000x128 .f32) (w : FVec Ideal S128x40 .f32) (r : Fin 50000) (q : Fin 40) :
    Host.dotGeneral dot_S50000x128_S128x40_S50000x40_1_0_0_1_n_n none a w (ix2 r q) = ∑ k : Fin 128, a (ix2 r k) * w (ix2 k q) := by
  simp only [Host.dotGeneral]
  rw [Ideal.dotGeneral_apply, ← Equiv.sum_comp (contrEquiv1 dot_S50000x128_S128x40_S50000x40_1_0_0_1_n_n 128 rfl rfl).symm]
  refine Finset.sum_congr rfl fun k _ => ?_
  have hk := contrEquiv1_symm_val dot_S50000x128_S128x40_S50000x40_1_0_0_1_n_n 128 rfl rfl k
  have el : dot_S50000x128_S128x40_S50000x40_1_0_0_1_n_n.lhsIdx (ix2 r q) ((contrEquiv1 dot_S50000x128_S128x40_S50000x40_1_0_0_1_n_n 128 rfl rfl).symm k) = ix2 r k := funext fun a => Fin.ext (by
    match a with
    | ⟨0, _⟩ => exact lhs40_0 _ _
    | ⟨1, _⟩ => exact (lhs40_1 _ _).trans hk)
  have er : dot_S50000x128_S128x40_S50000x40_1_0_0_1_n_n.rhsIdx (ix2 r q) ((contrEquiv1 dot_S50000x128_S128x40_S50000x40_1_0_0_1_n_n 128 rfl rfl).symm k) = ix2 k q := funext fun a => Fin.ext (by
    match a with
    | ⟨0, _⟩ => exact (rhs40_0 _ _).trans hk
    | ⟨1, _⟩ => exact rhs40_1 _ _)
  rw [el, er]

/-! ## The broadcasts, read at an entry -/

/-- A bias vector of 128 entries made a one-row array and spread over the 50000 rows: entry (r, q) is the bias at q. -/
theorem bias128_apply {α : Type} (b : S128.Idx → α) (r : Fin 50000) (q : Fin 128) :
    broadcastInDim S50000x128 ![0, 1] bcast_S1x128_S50000x128_0_1 (broadcastInDim S1x128 ![1] bcast_S128_S1x128_1 b) (ix2 r q) = b (ix1 q) := by
  refine (broadcastInDim_apply _ bcast_S1x128_S50000x128_0_1 _ (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])).trans ?_
  exact broadcastInDim_apply _ bcast_S128_S1x128_1 b (ix2 (0 : Fin 1) q) (ix1 q) (fun a => match a with
    | ⟨0, _⟩ => by show q.val = if (128 : Nat) = 1 then 0 else q.val; rw [if_neg (by decide)])

/-- A bias vector of 40 entries made a one-row array and spread over the 50000 rows: entry (r, q) is the bias at q. -/
theorem bias40_apply {α : Type} (b : S40.Idx → α) (r : Fin 50000) (q : Fin 40) :
    broadcastInDim S50000x40 ![0, 1] bcast_S1x40_S50000x40_0_1 (broadcastInDim S1x40 ![1] bcast_S40_S1x40_1 b) (ix2 r q) = b (ix1 q) := by
  refine (broadcastInDim_apply _ bcast_S1x40_S50000x40_0_1 _ (ix2 r q) (ix2 (0 : Fin 1) q) (fun a => match a with
    | ⟨0, _⟩ => by show 0 = if (1 : Nat) = 1 then 0 else r.val; rw [if_pos rfl]
    | ⟨1, _⟩ => by show q.val = if (40 : Nat) = 1 then 0 else q.val; rw [if_neg (by decide)])).trans ?_
  exact broadcastInDim_apply _ bcast_S40_S1x40_1 b (ix2 (0 : Fin 1) q) (ix1 q) (fun a => match a with
    | ⟨0, _⟩ => by show q.val = if (40 : Nat) = 1 then 0 else q.val; rw [if_neg (by decide)])

/-- A scalar constant spread over any shape reads, everywhere, the extended real its word encodes. -/
theorem splat_apply {t : Shape} (h : S_.BroadcastsInDim t (![] : Fin 0 → Fin t.rank)) (c : BitVec 32) (i : t.Idx) :
    broadcastInDim t ![] h (constant (F := Ideal) S_ .f32 c) i = Ideal.ofBits .f32 c :=
  broadcastInDim_apply _ h (constant (F := Ideal) S_ .f32 c) i (fun a => a.elim0) (fun a => a.elim0)

/-- A vector of 50000 entries made a column: row r holds entry r, whatever the unit coordinate. -/
theorem colMake_apply {α : Type} (v : S50000.Idx → α) (r : Fin 50000) (u : Fin 1) :
    broadcastInDim S50000x1 ![0] bcast_S50000_S50000x1_0 v (ix2 r u) = v (ix1 r) :=
  broadcastInDim_apply _ bcast_S50000_S50000x1_0 v (ix2 r u) (ix1 r) (fun a => match a with
    | ⟨0, _⟩ => by show r.val = if (50000 : Nat) = 1 then 0 else r.val; rw [if_neg (by decide)])

/-- A column of 50000 rows spread over the 40 columns: entry (r, q) is the column's entry in row r. -/
theorem colSpread_apply {α : Type} (v : S50000x1.Idx → α) (r : Fin 50000) (q : Fin 40) :
    broadcastInDim S50000x40 ![0, 1] bcast_S50000x1_S50000x40_0_1 v (ix2 r q) = v (ix2 r (0 : Fin 1)) :=
  broadcastInDim_apply _ bcast_S50000x1_S50000x40_0_1 v (ix2 r q) (ix2 r (0 : Fin 1)) (fun a => match a with
    | ⟨0, _⟩ => by show r.val = if (50000 : Nat) = 1 then 0 else r.val; rw [if_neg (by decide)]
    | ⟨1, _⟩ => by show 0 = if (1 : Nat) = 1 then 0 else q.val; rw [if_pos rfl])

/-! ## The rectified stage -/

theorem dense128_apply (a : FVec Ideal S50000x128 .f32) (w : FVec Ideal S128x128 .f32) (b : FVec Ideal S128 .f32)
    (r : Fin 50000) (q : Fin 128) :
    dense128 (F := Ideal) a w b (ix2 r q) = max (affine128 a w b r q) 0 := by
  unfold dense128
  refine (maximumf_apply _ _ _).trans ?_
  refine congrArg₂ max ?_ ((splat_apply _ _ _).trans Ideal.ofBits_zero_f32)
  refine (addf_apply _ _ _).trans ?_
  unfold affine128
  exact congrArg₂ (· + ·) (dot128_apply a w r q) (bias128_apply b r q)

/-! ## The two row reductions, read at a row -/

theorem reduces40 : S50000x40.Reduces [1] S50000 := by decide

/-- The source entry a reduction of a 50000-by-40 array over its columns visits for row r at column k is (r, k). -/
theorem lift40 (r : Fin 50000) (k : Fin 40) : reduces40.lift (ix1 r) k = ix2 r k :=
  funext fun a => Fin.ext (by
    match a with
    | ⟨0, _⟩ => rfl
    | ⟨1, _⟩ => rfl)

/-- The maximum-reduce over the columns from the lower end, at row r: the maximum of that row. -/
theorem hostRowMax_apply (y : FVec Ideal S50000x40 .f32) (r : Fin 50000) :
    Host.reduce (FloatOps.maximumf (F := Ideal) (φ := .f32)) y (constant (F := Ideal) S_ .f32 0xFF800000#32)
        reducesTo_S50000x40_S50000_d1 h_S_ (ix1 r)
      = rowMax fun k => y (ix2 r k) := by
  refine (Host.reduce_eq_fold_single (FloatOps.maximumf (F := Ideal) (φ := .f32)) y _ reducesTo_S50000x40_S50000_d1 reduces40
    h_S_ (ix1 r)).trans ?_
  show (Finset.univ : Finset (Fin 40)).fold max negInf (fun k => y (reduces40.lift (ix1 r) k)) = _
  unfold rowMax
  exact congrArg (fun f : Fin 40 → EReal => (Finset.univ : Finset (Fin 40)).fold max negInf f)
    (funext fun k => congrArg y (lift40 r k))

/-- The sum over the columns from zero, at row r: the sum of that row. -/
theorem hostRowSum_apply (x : FVec Ideal S50000x40 .f32) (r : Fin 50000) :
    Host.reduceAdd x (constant (F := Ideal) S_ .f32 0x00000000#32) reducesTo_S50000x40_S50000_d1 h_S_ (ix1 r)
      = ∑ k : Fin 40, x (ix2 r k) := by
  simp only [Host.reduceAdd, Ideal.hostReduceAdd_def]
  rw [Ideal.hostReduceAdd_single reducesTo_S50000x40_S50000_d1 reduces40]
  show Ideal.ofBits .f32 0x00000000#32 + ∑ k : Fin 40, x (reduces40.lift (ix1 r) k) = _
  rw [Ideal.ofBits_zero_f32, zero_add]
  exact Finset.sum_congr rfl fun k _ => congrArg x (lift40 r k)

/-! ## The log-softmax stage -/

/-- The host's exponential and logarithm at an entry are the extended reals'. -/
theorem hostExp_apply {s : Shape} {φ : FTy} (x : FVec Ideal s φ) (i : s.Idx) : Host.exp x i = Ideal.exp (x i) := rfl
theorem hostLog_apply {s : Shape} {φ : FTy} (x : FVec Ideal s φ) (i : s.Idx) : Host.log x i = Ideal.log (x i) := rfl

/-- The affine part of the last stage at (r, q). -/
theorem logits40_apply (a : FVec Ideal S50000x128 .f32) (w : FVec Ideal S128x40 .f32) (b : FVec Ideal S40 .f32)
    (r : Fin 50000) (q : Fin 40) :
    logits40 (F := Ideal) a w b (ix2 r q) = affine40 a w b r q := by
  unfold logits40
  refine (addf_apply _ _ _).trans ?_
  unfold affine40
  exact congrArg₂ (· + ·) (dot40_apply a w r q) (bias40_apply b r q)

/-- The row maxima at r: the maximum of row r, the extra maximum with the lower end changing nothing. -/
theorem rowMaxes_apply (y : FVec Ideal S50000x40 .f32) (r : Fin 50000) :
    rowMaxes (F := Ideal) y (ix1 r) = rowMax fun k => y (ix2 r k) := by
  unfold rowMaxes
  refine (maximumf_apply _ _ _).trans ?_
  refine (congrArg₂ max (splat_apply _ _ _) (hostRowMax_apply y r)).trans ?_
  exact max_negInf_rowMax _

/-- The shifted rows at (r, q): the entry minus the maximum of row r. -/
theorem shiftRows_apply (y : FVec Ideal S50000x40 .f32) (r : Fin 50000) (q : Fin 40) :
    shiftRows (F := Ideal) y (ix2 r q) = y (ix2 r q) - rowMax fun k => y (ix2 r k) := by
  unfold shiftRows
  refine (subf_apply _ _ _).trans ?_
  exact congrArg (y (ix2 r q) - ·) ((colSpread_apply _ r q).trans ((colMake_apply _ r 0).trans (rowMaxes_apply y r)))

/-- The row-wise log-softmax at (r, q): the log-softmax of row r at q. -/
theorem logSoftmaxRows_apply (y : FVec Ideal S50000x40 .f32) (r : Fin 50000) (q : Fin 40) :
    logSoftmaxRows (F := Ideal) y (ix2 r q) = lsmRow (fun k => y (ix2 r k)) q := by
  unfold logSoftmaxRows
  refine (subf_apply _ _ _).trans ?_
  unfold lsmRow
  refine congrArg₂ (· - ·) (shiftRows_apply y r q) ?_
  refine (colSpread_apply _ r q).trans ?_
  refine (hostLog_apply _ _).trans (congrArg Ideal.log ?_)
  refine (colMake_apply _ r 0).trans ?_
  refine (hostRowSum_apply _ r).trans ?_
  refine Finset.sum_congr rfl fun k _ => ?_
  exact (hostExp_apply _ _).trans (congrArg Ideal.exp (shiftRows_apply y r k))

theorem lsm40_apply (a : FVec Ideal S50000x128 .f32) (w : FVec Ideal S128x40 .f32) (b : FVec Ideal S40 .f32)
    (r : Fin 50000) (q : Fin 40) :
    lsm40 (F := Ideal) a w b (ix2 r q) = lsmRow (affine40 a w b r) q := by
  unfold lsm40
  refine (logSoftmaxRows_apply _ r q).trans ?_
  exact congrArg (fun y => lsmRow y q) (funext fun k => logits40_apply a w b r k)

/-! ## The two stages as whole arrays -/

theorem dense128_eq (a : (⟨S50000x128, .f32⟩ : BufTy).Contents (Elt Ideal)) (w : (⟨S128x128, .f32⟩ : BufTy).Contents (Elt Ideal))
    (b : (⟨S128, .f32⟩ : BufTy).Contents (Elt Ideal)) :
    dense128 (F := Ideal) a w b = denseRelu a w b := by
  funext i
  exact (congrArg (dense128 (F := Ideal) a w b) (eq_ix2 i)).trans (dense128_apply a w b (i 0) (i 1))

theorem lsm40_eq (a : (⟨S50000x128, .f32⟩ : BufTy).Contents (Elt Ideal)) (w : (⟨S128x40, .f32⟩ : BufTy).Contents (Elt Ideal))
    (b : (⟨S40, .f32⟩ : BufTy).Contents (Elt Ideal)) :
    lsm40 (F := Ideal) a w b = denseLsm a w b := by
  funext i
  exact (congrArg (lsm40 (F := Ideal) a w b) (eq_ix2 i)).trans (lsm40_apply a w b (i 0) (i 1))

end Cert.ReferenceIdeal.Dense

end
-- ==== Proof.RefKeeps.lean ====
/-
  No host operation of the reference program writes an argument buffer: stretch by stretch, and so for the whole
  list. Each operation's result buffer is listed and is a buffer other than the eleven arguments.
-/
import proofs.«111052_j87479893885153_1_alg».proof.Proof.RefChunks
import Idealize.ShloMosaic.Lib.StableHlo.Run
import Idealize.ShloMosaic.Lib.Pipeline.Frame

set_option maxRecDepth 16384

noncomputable section

namespace Cert.ReferenceIdeal.Keeps

open Cert.ReferenceIdeal Cert.ReferenceIdeal.Gen Cert.ReferenceIdeal.Stretch
open Idealize.ShloMosaic Idealize.ShloMosaic.TcCoe Idealize.SL.Sem Idealize.ShloMosaic.StableHlo

variable {F : FTy → Type} [FloatOps F]

/-- The eleven argument buffers of @main. -/
abbrev argRefs : List (Ref sig .tc) :=
  [main_arg0, main_arg1, main_arg2, main_arg3, main_arg4, main_arg5, main_arg6, main_arg7, main_arg8, main_arg9, main_arg10]

/-- A buffer none of a stretch's operations writes keeps its contents: the operations' result buffers are listed and
    each is another buffer. -/
macro "ref_stretch_keeps" ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

theorem keeps_egoConv1 (U : Valuation τ sig (Elt F)) (b : Ref sig .tc) (hb : b ∈ argRefs) :
    after (egoConv1 (F := F)) U (Proc.devRef .tc b) = U (Proc.devRef .tc b) := by
  simp only [argRefs, List.mem_cons, List.not_mem_nil, or_false] at hb
  rcases hb with rfl | rfl | rfl | rfl | rfl | rfl | rfl | rfl | rfl | rfl | rfl <;> ref_stretch_keeps egoConv1

theorem keeps_dense1 (U : Valuation τ sig (Elt F)) (b : Ref sig .tc) (hb : b ∈ argRefs) :
    after (dense1 (F := F)) U (Proc.devRef .tc b) = U (Proc.devRef .tc b) := by
  simp only [argRefs, List.mem_cons, List.not_mem_nil, or_false] at hb
  rcases hb with rfl | rfl | rfl | rfl | rfl | rfl | rfl | rfl | rfl | rfl | rfl <;> ref_stretch_keeps dense1

theorem keeps_ginSum1 (U : Valuation τ sig (Elt F)) (b : Ref sig .tc) (hb : b ∈ argRefs) :
    after (ginSum1 (F := F)) U (Proc.devRef .tc b) = U (Proc.devRef .tc b) := by
  simp only [argRefs, List.mem_cons, List.not_mem_nil, or_false] at hb
  rcases hb with rfl | rfl | rfl | rfl | rfl | rfl | rfl | rfl | rfl | rfl | rfl <;> ref_stretch_keeps ginSum1

theorem keeps_dense2 (U : Valuation τ sig (Elt F)) (b : Ref sig .tc) (hb : b ∈ argRefs) :
    after (dense2 (F := F)) U (Proc.devRef .tc b) = U (Proc.devRef .tc b) := by
  simp only [argRefs, List.mem_cons, List.not_mem_nil, or_false] at hb
  rcases hb with rfl | rfl | rfl | rfl | rfl | rfl | rfl | rfl | rfl | rfl | rfl <;> ref_stretch_keeps dense2

theorem keeps_egoConv2 (U : Valuation τ sig (Elt F)) (b : Ref sig .tc) (hb : b ∈ argRefs) :
    after (egoConv2 (F := F)) U (Proc.devRef .tc b) = U (Proc.devRef .tc b) := by
  simp only [argRefs, List.mem_cons, List.not_mem_nil, or_false] at hb
  rcases hb with rfl | rfl | rfl | rfl | rfl | rfl | rfl | rfl | rfl | rfl | rfl <;> ref_stretch_keeps egoConv2

theorem keeps_dense3 (U : Valuation τ sig (Elt F)) (b : Ref sig .tc) (hb : b ∈ argRefs) :
    after (dense3 (F := F)) U (Proc.devRef .tc b) = U (Proc.devRef .tc b) := by
  simp only [argRefs, List.mem_cons, List.not_mem_nil, or_false] at hb
  rcases hb with rfl | rfl | rfl | rfl | rfl | rfl | rfl | rfl | rfl | rfl | rfl <;> ref_stretch_keeps dense3

theorem keeps_ginSum2 (U : Valuation τ sig (Elt F)) (b : Ref sig .tc) (hb : b ∈ argRefs) :
    after (ginSum2 (F := F)) U (Proc.devRef .tc b) = U (Proc.devRef .tc b) := by
  simp only [argRefs, List.mem_cons, List.not_mem_nil, or_false] at hb
  rcases hb with rfl | rfl | rfl | rfl | rfl | rfl | rfl | rfl | rfl | rfl | rfl <;> ref_stretch_keeps ginSum2

theorem keeps_denseLsm (U : Valuation τ sig (Elt F)) (b : Ref sig .tc) (hb : b ∈ argRefs) :
    after (denseLsm (F := F)) U (Proc.devRef .tc b) = U (Proc.devRef .tc b) := by
  simp only [argRefs, List.mem_cons, List.not_mem_nil, or_false] at hb
  rcases hb with rfl | rfl | rfl | rfl | rfl | rfl | rfl | rfl | rfl | rfl | rfl <;> ref_stretch_keeps denseLsm

/-- The whole operation list writes no argument buffer. -/
theorem keeps_ops (U : Valuation τ sig (Elt F)) (b : Ref sig .tc) (hb : b ∈ argRefs) :
    after (Cert.ReferenceIdeal.ValueP.ops (F := F)) U (Proc.devRef .tc b) = U (Proc.devRef .tc b) := by
  rw [Cert.ReferenceIdeal.Stretch.ops_eq]
  simp only [StableHlo.after_append]
  rw [keeps_denseLsm _ b hb, keeps_ginSum2 _ b hb, keeps_dense3 _ b hb, keeps_egoConv2 _ b hb, keeps_dense2 _ b hb,
    keeps_ginSum1 _ b hb, keeps_dense1 _ b hb, keeps_egoConv1 _ b hb]

end Cert.ReferenceIdeal.Keeps

end
-- ==== Proof.RefLsm.lean ====
/-
  The reference's last stretch of host operations, read in four short pieces and put together: the affine array of
  the last stage; every row's maximum; the rows minus their maxima; and the difference with the logarithm of the
  rows' summed exponentials. From any contents of the buffers the stretch leaves, in the result buffer, the
  reference's log-softmax stage of the feature array, the weight matrix and the bias it finds.

  The operations of the log-softmax come from a called function and carry their buffers with a stated type; moving
  contents between that type and a literal buffer's own is the identity, buffer by buffer. These identities are
  rewritten one occurrence at a time, so that the row reduction inside the term is never opened.
-/
import proofs.«111052_j87479893885153_1_alg».proof.Proof.RefChunks
import proofs.«111052_j87479893885153_1_alg».proof.Proof.RefDense
import Idealize.ShloMosaic.Lib.StableHlo.Run
import Idealize.ShloMosaic.Lib.Pipeline.Frame

set_option maxRecDepth 16384

noncomputable section

namespace Cert.ReferenceIdeal.Lsm

open Cert.ReferenceIdeal Cert.ReferenceIdeal.Facts₀ Cert.ReferenceIdeal.Facts
open Cert.ReferenceIdeal.Stretch Cert.ReferenceIdeal.Dense
open Idealize.ShloMosaic Idealize.ShloMosaic.TcCoe Idealize.SL.Sem Idealize.ShloMosaic.StableHlo

variable {F : FTy → Type} [FloatOps F]

/-! ## Contents at a literal buffer's stated type and at its own type: the identity -/

theorem toBuf_cst (v : (⟨S_, .f32⟩ : BufTy).Contents (Elt F)) :
    (TRef.of (sig := sig) (T := ⟨S_, .f32⟩) main_call3_cst).toBuf v = v := rfl
theorem ofBuf_cst (v : (⟨S_, .f32⟩ : BufTy).Contents (Elt F)) :
    (TRef.of (sig := sig) (T := ⟨S_, .f32⟩) main_call3_cst).ofBuf v = v := rfl
theorem toBuf_cst0 (v : (⟨S_, .f32⟩ : BufTy).Contents (Elt F)) :
    (TRef.of (sig := sig) (T := ⟨S_, .f32⟩) main_call3_cst_0).toBuf v = v := rfl
theorem ofBuf_cst0 (v : (⟨S_, .f32⟩ : BufTy).Contents (Elt F)) :
    (TRef.of (sig := sig) (T := ⟨S_, .f32⟩) main_call3_cst_0).ofBuf v = v := rfl
theorem toBuf_cst1 (v : (⟨S_, .f32⟩ : BufTy).Contents (Elt F)) :
    (TRef.of (sig := sig) (T := ⟨S_, .f32⟩) main_call3_cst_1).toBuf v = v := rfl
theorem ofBuf_cst1 (v : (⟨S_, .f32⟩ : BufTy).Contents (Elt F)) :
    (TRef.of (sig := sig) (T := ⟨S_, .f32⟩) main_call3_cst_1).ofBuf v = v := rfl
theorem toBuf_v80 (v : (⟨S50000x40, .f32⟩ : BufTy).Contents (Elt F)) :
    (TRef.of (sig := sig) (T := ⟨S50000x40, .f32⟩) main_v80).toBuf v = v := rfl
theorem ofBuf_v80 (v : (⟨S50000x40, .f32⟩ : BufTy).Contents (Elt F)) :
    (TRef.of (sig := sig) (T := ⟨S50000x40, .f32⟩) main_v80).ofBuf v = v := rfl
theorem toBuf_c0 (v : (⟨S50000, .f32⟩ : BufTy).Contents (Elt F)) :
    (TRef.of (sig := sig) (T := ⟨S50000, .f32⟩) main_call3_v0).toBuf v = v := rfl
theorem ofBuf_c0 (v : (⟨S50000, .f32⟩ : BufTy).Contents (Elt F)) :
    (TRef.of (sig := sig) (T := ⟨S50000, .f32⟩) main_call3_v0).ofBuf v = v := rfl
theorem toBuf_c1 (v : (⟨S50000, .f32⟩ : BufTy).Contents (Elt F)) :
    (TRef.of (sig := sig) (T := ⟨S50000, .f32⟩) main_call3_v1).toBuf v = v := rfl
theorem ofBuf_c1 (v : (⟨S50000, .f32⟩ : BufTy).Contents (Elt F)) :
    (TRef.of (sig := sig) (T := ⟨S50000, .f32⟩) main_call3_v1).ofBuf v = v := rfl
theorem toBuf_c2 (v : (⟨S50000, .f32⟩ : BufTy).Contents (Elt F)) :
    (TRef.of (sig := sig) (T := ⟨S50000, .f32⟩) main_call3_v2).toBuf v = v := rfl
theorem ofBuf_c2 (v : (⟨S50000, .f32⟩ : BufTy).Contents (Elt F)) :
    (TRef.of (sig := sig) (T := ⟨S50000, .f32⟩) main_call3_v2).ofBuf v = v := rfl
theorem toBuf_c3 (v : (⟨S50000x1, .f32⟩ : BufTy).Contents (Elt F)) :
    (TRef.of (sig := sig) (T := ⟨S50000x1, .f32⟩) main_call3_v3).toBuf v = v := rfl
theorem ofBuf_c3 (v : (⟨S50000x1, .f32⟩ : BufTy).Contents (Elt F)) :
    (TRef.of (sig := sig) (T := ⟨S50000x1, .f32⟩) main_call3_v3).ofBuf v = v := rfl
theorem toBuf_c4 (v : (⟨S50000x40, .f32⟩ : BufTy).Contents (Elt F)) :
    (TRef.of (sig := sig) (T := ⟨S50000x40, .f32⟩) main_call3_v4).toBuf v = v := rfl
theorem ofBuf_c4 (v : (⟨S50000x40, .f32⟩ : BufTy).Contents (Elt F)) :
    (TRef.of (sig := sig) (T := ⟨S50000x40, .f32⟩) main_call3_v4).ofBuf v = v := rfl
theorem toBuf_c5 (v : (⟨S50000x40, .f32⟩ : BufTy).Contents (Elt F)) :
    (TRef.of (sig := sig) (T := ⟨S50000x40, .f32⟩) main_call3_v5).toBuf v = v := rfl
theorem ofBuf_c5 (v : (⟨S50000x40, .f32⟩ : BufTy).Contents (Elt F)) :
    (TRef.of (sig := sig) (T := ⟨S50000x40, .f32⟩) main_call3_v5).ofBuf v = v := rfl
theorem toBuf_c6 (v : (⟨S50000x40, .f32⟩ : BufTy).Contents (Elt F)) :
    (TRef.of (sig := sig) (T := ⟨S50000x40, .f32⟩) main_call3_v6).toBuf v = v := rfl
theorem ofBuf_c6 (v : (⟨S50000x40, .f32⟩ : BufTy).Contents (Elt F)) :
    (TRef.of (sig := sig) (T := ⟨S50000x40, .f32⟩) main_call3_v6).ofBuf v = v := rfl
theorem toBuf_c7 (v : (⟨S50000, .f32⟩ : BufTy).Contents (Elt F)) :
    (TRef.of (sig := sig) (T := ⟨S50000, .f32⟩) main_call3_v7).toBuf v = v := rfl
theorem ofBuf_c7 (v : (⟨S50000, .f32⟩ : BufTy).Contents (Elt F)) :
    (TRef.of (sig := sig) (T := ⟨S50000, .f32⟩) main_call3_v7).ofBuf v = v := rfl
theorem toBuf_c8 (v : (⟨S50000x1, .f32⟩ : BufTy).Contents (Elt F)) :
    (TRef.of (sig := sig) (T := ⟨S50000x1, .f32⟩) main_call3_v8).toBuf v = v := rfl
theorem ofBuf_c8 (v : (⟨S50000x1, .f32⟩ : BufTy).Contents (Elt F)) :
    (TRef.of (sig := sig) (T := ⟨S50000x1, .f32⟩) main_call3_v8).ofBuf v = v := rfl
theorem toBuf_c9 (v : (⟨S50000x1, .f32⟩ : BufTy).Contents (Elt F)) :
    (TRef.of (sig := sig) (T := ⟨S50000x1, .f32⟩) main_call3_v9).toBuf v = v := rfl
theorem ofBuf_c9 (v : (⟨S50000x1, .f32⟩ : BufTy).Contents (Elt F)) :
    (TRef.of (sig := sig) (T := ⟨S50000x1, .f32⟩) main_call3_v9).ofBuf v = v := rfl
theorem toBuf_c10 (v : (⟨S50000x40, .f32⟩ : BufTy).Contents (Elt F)) :
    (TRef.of (sig := sig) (T := ⟨S50000x40, .f32⟩) main_call3_v10).toBuf v = v := rfl
theorem ofBuf_c10 (v : (⟨S50000x40, .f32⟩ : BufTy).Contents (Elt F)) :
    (TRef.of (sig := sig) (T := ⟨S50000x40, .f32⟩) main_call3_v10).ofBuf v = v := rfl
theorem toBuf_v81 (v : (⟨S50000x40, .f32⟩ : BufTy).Contents (Elt F)) :
    (TRef.of (sig := sig) (T := ⟨S50000x40, .f32⟩) main_v81).toBuf v = v := rfl
theorem ofBuf_v81 (v : (⟨S50000x40, .f32⟩ : BufTy).Contents (Elt F)) :
    (TRef.of (sig := sig) (T := ⟨S50000x40, .f32⟩) main_v81).ofBuf v = v := rfl

/-- Rewrites those identities, one occurrence at a time, until none is left. -/
macro "literal_buffers" : tactic => `(tactic|
  repeat (first
    | rw [toBuf_cst] | rw [ofBuf_cst]
    | rw [toBuf_cst0] | rw [ofBuf_cst0]
    | rw [toBuf_cst1] | rw [ofBuf_cst1]
    | rw [toBuf_v80] | rw [ofBuf_v80]
    | rw [toBuf_c0] | rw [ofBuf_c0]
    | rw [toBuf_c1] | rw [ofBuf_c1]
    | rw [toBuf_c2] | rw [ofBuf_c2]
    | rw [toBuf_c3] | rw [ofBuf_c3]
    | rw [toBuf_c4] | rw [ofBuf_c4]
    | rw [toBuf_c5] | rw [ofBuf_c5]
    | rw [toBuf_c6] | rw [ofBuf_c6]
    | rw [toBuf_c7] | rw [ofBuf_c7]
    | rw [toBuf_c8] | rw [ofBuf_c8]
    | rw [toBuf_c9] | rw [ofBuf_c9]
    | rw [toBuf_c10] | rw [ofBuf_c10]
    | rw [toBuf_v81] | rw [ofBuf_v81]))

/-! ## The four pieces -/

set_option maxHeartbeats 4000000 in
/-- The first four operations leave the affine array. -/
theorem read_affine (U : Valuation τ sig (Elt F)) :
    after (lsmAffine (F := F)) U (Proc.devRef .tc main_v80)
      = logits40 (F := F) (U (Proc.devRef .tc main_v76)) (U (Proc.devRef .tc main_arg9)) (U (Proc.devRef .tc main_arg10)) := by
  after_results_simp <;> rfl

set_option maxHeartbeats 4000000 in
/-- The next five leave every row's maximum of the array they find. -/
theorem read_rowMax (U : Valuation τ sig (Elt F)) :
    after (lsmRowMax (F := F)) U (Proc.devRef .tc main_call3_v2) = rowMaxes (F := F) (U (Proc.devRef .tc main_v80)) := by
  after_results_simp
  literal_buffers
  try rfl

set_option maxHeartbeats 4000000 in
/-- … and do not write that array. -/
theorem keep_rowMax (U : Valuation τ sig (Elt F)) :
    after (lsmRowMax (F := F)) U (Proc.devRef .tc main_v80) = U (Proc.devRef .tc main_v80) := by
  after_results_simp <;> rfl

set_option maxHeartbeats 4000000 in
/-- The next three leave the array minus the row maxima spread along the rows. -/
theorem read_shift (U : Valuation τ sig (Elt F)) :
    after (lsmShift (F := F)) U (Proc.devRef .tc main_call3_v5)
      = subf (U (Proc.devRef .tc main_v80))
          (broadcastInDim S50000x40 ![0, 1] bcast_S50000x1_S50000x40_0_1
            (broadcastInDim S50000x1 ![0] bcast_S50000_S50000x1_0 (U (Proc.devRef .tc main_call3_v2)))) := by
  after_results_simp
  literal_buffers
  try rfl

set_option maxHeartbeats 4000000 in
/-- The last seven leave the shifted array minus the logarithm of its rows' summed exponentials. -/
theorem read_tail (U : Valuation τ sig (Elt F)) :
    after (lsmTail (F := F)) U (Proc.devRef .tc main_v81)
      = subf (U (Proc.devRef .tc main_call3_v5))
          (broadcastInDim S50000x40 ![0, 1] bcast_S50000x1_S50000x40_0_1
            (Host.log (broadcastInDim S50000x1 ![0] bcast_S50000_S50000x1_0
              (Host.reduceAdd (Host.exp (U (Proc.devRef .tc main_call3_v5))) (constant (F := F) S_ .f32 0x00000000#32)
                reducesTo_S50000x40_S50000_d1 h_S_)))) := by
  after_results_simp
  literal_buffers
  try rfl

/-! ## The stretch -/

/-- The whole last stretch: the reference's log-softmax stage of what it finds. -/
theorem read_denseLsm (U : Valuation τ sig (Elt F)) :
    after (denseLsm (F := F)) U (Proc.devRef .tc main_v81)
      = lsm40 (F := F) (U (Proc.devRef .tc main_v76)) (U (Proc.devRef .tc main_arg9)) (U (Proc.devRef .tc main_arg10)) := by
  rw [denseLsm_eq]
  simp only [StableHlo.after_append]
  rw [read_tail, read_shift, read_rowMax, keep_rowMax, read_affine]
  rfl

end Cert.ReferenceIdeal.Lsm

end
-- ==== Proof.RefWalk.lean ====
/-
  The reference program's run, read: from any contents of the buffers, after @main's 116 host operations the result
  buffer holds the network's function of the contents of the eleven argument buffers, and no operation writes an
  argument buffer. The operations are taken eight stretches at a time (two ego convolutions, two GIN sums, three dense
  stages with the rectifier, the last dense stage with the log-softmax); each stretch leaves one function of what the
  stretch before left and of some arguments, and the dense stretches' functions are the specification's.
-/
import proofs.«111052_j87479893885153_1_alg».proof.Proof.RefChunks
import proofs.«111052_j87479893885153_1_alg».proof.Proof.RefDense
import proofs.«111052_j87479893885153_1_alg».proof.Proof.RefKeeps
import proofs.«111052_j87479893885153_1_alg».proof.Proof.RefLsm
import proofs.«111052_j87479893885153_1_alg».proof.Proof.Result
import Idealize.ShloMosaic.Lib.StableHlo.Run
import Idealize.ShloMosaic.Lib.Pipeline.Frame

set_option maxRecDepth 16384

noncomputable section

namespace Cert.ReferenceIdeal.Walk

open Cert.ReferenceIdeal Cert.ReferenceIdeal.Gen Cert.ReferenceIdeal.Stretch Cert.ReferenceIdeal.Dense
open Idealize.ShloMosaic Idealize.ShloMosaic.TcCoe Idealize.SL.Sem Idealize.ShloMosaic.StableHlo

/-- The eleven argument buffers of @main. -/
abbrev argRefs : List (Ref sig .tc) :=
  [main_arg0, main_arg1, main_arg2, main_arg3, main_arg4, main_arg5, main_arg6, main_arg7, main_arg8, main_arg9, main_arg10]

section Stretches
variable {F : FTy → Type} [FloatOps F]

/-! ## What each stretch leaves in its last buffer, for any float family -/

set_option maxHeartbeats 4000000 in
/-- The first twenty operations leave the ego convolution of the input features. -/
theorem egoConv1_value (U : Valuation τ sig (Elt F)) :
    after (egoConv1 (F := F)) U (Proc.devRef .tc main_v15)
      = Cert.KernelIdeal.Chain.egoConv (F := F) (U (Proc.devRef .tc main_arg0)) (U (Proc.devRef .tc main_arg2)) := by
  after_results_simp <;> rfl

set_option maxHeartbeats 4000000 in
/-- The next seven leave the first dense stage of what the buffer before them held. -/
theorem dense1_value (U : Valuation τ sig (Elt F)) :
    after (dense1 (F := F)) U (Proc.devRef .tc main_v20)
      = dense128 (F := F) (U (Proc.devRef .tc main_v15)) (U (Proc.devRef .tc main_arg3)) (U (Proc.devRef .tc main_arg4)) := by
  after_results_simp <;> (try simp only [TRef.ofBuf, TRef.toBuf, cast_eq]) <;> rfl

set_option maxHeartbeats 4000000 in
/-- The next eighteen leave the GIN sum. -/
theorem ginSum1_value (U : Valuation τ sig (Elt F)) :
    after (ginSum1 (F := F)) U (Proc.devRef .tc main_v35)
      = Cert.KernelIdeal.Chain.ginSum (F := F) (U (Proc.devRef .tc main_v20)) (U (Proc.devRef .tc main_arg1)) := by
  after_results_simp <;> rfl

set_option maxHeartbeats 4000000 in
/-- The second dense stage. -/
theorem dense2_value (U : Valuation τ sig (Elt F)) :
    after (dense2 (F := F)) U (Proc.devRef .tc main_v40)
      = dense128 (F := F) (U (Proc.devRef .tc main_v35)) (U (Proc.devRef .tc main_arg5)) (U (Proc.devRef .tc main_arg6)) := by
  after_results_simp <;> (try simp only [TRef.ofBuf, TRef.toBuf, cast_eq]) <;> rfl

set_option maxHeartbeats 4000000 in
/-- The second ego convolution. -/
theorem egoConv2_value (U : Valuation τ sig (Elt F)) :
    after (egoConv2 (F := F)) U (Proc.devRef .tc main_v56)
      = Cert.KernelIdeal.Chain.egoConv (F := F) (U (Proc.devRef .tc main_v40)) (U (Proc.devRef .tc main_arg2)) := by
  after_results_simp <;> rfl

set_option maxHeartbeats 4000000 in
/-- The third dense stage. -/
theorem dense3_value (U : Valuation τ sig (Elt F)) :
    after (dense3 (F := F)) U (Proc.devRef .tc main_v61)
      = dense128 (F := F) (U (Proc.devRef .tc main_v56)) (U (Proc.devRef .tc main_arg7)) (U (Proc.devRef .tc main_arg8)) := by
  after_results_simp <;> (try simp only [TRef.ofBuf, TRef.toBuf, cast_eq]) <;> rfl

set_option maxHeartbeats 4000000 in
/-- The second GIN sum. -/
theorem ginSum2_value (U : Valuation τ sig (Elt F)) :
    after (ginSum2 (F := F)) U (Proc.devRef .tc main_v76)
      = Cert.KernelIdeal.Chain.ginSum (F := F) (U (Proc.devRef .tc main_v61)) (U (Proc.devRef .tc main_arg1)) := by
  after_results_simp <;> rfl

end Stretches

section Walk
variable (U : Valuation τ sig (Elt Ideal))

/-- The list of operations run as its eight stretches, one after the other. -/
theorem after_ops :
    after (Cert.ReferenceIdeal.ValueP.ops (F := Ideal)) U
      = after (Stretch.denseLsm (F := Ideal)) (after (ginSum2 (F := Ideal)) (after (dense3 (F := Ideal))
          (after (egoConv2 (F := Ideal)) (after (dense2 (F := Ideal)) (after (ginSum1 (F := Ideal))
            (after (dense1 (F := Ideal)) (after (egoConv1 (F := Ideal)) U))))))) := by
  rw [ops_eq, StableHlo.after_append, StableHlo.after_append, StableHlo.after_append, StableHlo.after_append,
    StableHlo.after_append, StableHlo.after_append, StableHlo.after_append]

theorem mem0 : main_arg0 ∈ argRefs := by decide
theorem mem1 : main_arg1 ∈ argRefs := by decide
theorem mem2 : main_arg2 ∈ argRefs := by decide
theorem mem3 : main_arg3 ∈ argRefs := by decide
theorem mem4 : main_arg4 ∈ argRefs := by decide
theorem mem5 : main_arg5 ∈ argRefs := by decide
theorem mem6 : main_arg6 ∈ argRefs := by decide
theorem mem7 : main_arg7 ∈ argRefs := by decide
theorem mem8 : main_arg8 ∈ argRefs := by decide
theorem mem9 : main_arg9 ∈ argRefs := by decide
theorem mem10 : main_arg10 ∈ argRefs := by decide

/-! ## The buffers after the first k stretches -/

abbrev run1 : Valuation τ sig (Elt Ideal) := after (egoConv1 (F := Ideal)) U
abbrev run2 : Valuation τ sig (Elt Ideal) := after (dense1 (F := Ideal)) (run1 U)
abbrev run3 : Valuation τ sig (Elt Ideal) := after (ginSum1 (F := Ideal)) (run2 U)
abbrev run4 : Valuation τ sig (Elt Ideal) := after (dense2 (F := Ideal)) (run3 U)
abbrev run5 : Valuation τ sig (Elt Ideal) := after (egoConv2 (F := Ideal)) (run4 U)
abbrev run6 : Valuation τ sig (Elt Ideal) := after (dense3 (F := Ideal)) (run5 U)
abbrev run7 : Valuation τ sig (Elt Ideal) := after (ginSum2 (F := Ideal)) (run6 U)

/-! ## An argument buffer still holds its first contents after k stretches -/

theorem keep1 (b : Ref sig .tc) (hb : b ∈ argRefs) : run1 U (Proc.devRef .tc b) = U (Proc.devRef .tc b) :=
  Cert.ReferenceIdeal.Keeps.keeps_egoConv1 U b hb
theorem keep2 (b : Ref sig .tc) (hb : b ∈ argRefs) : run2 U (Proc.devRef .tc b) = U (Proc.devRef .tc b) :=
  (Cert.ReferenceIdeal.Keeps.keeps_dense1 (run1 U) b hb).trans (keep1 U b hb)
theorem keep3 (b : Ref sig .tc) (hb : b ∈ argRefs) : run3 U (Proc.devRef .tc b) = U (Proc.devRef .tc b) :=
  (Cert.ReferenceIdeal.Keeps.keeps_ginSum1 (run2 U) b hb).trans (keep2 U b hb)
theorem keep4 (b : Ref sig .tc) (hb : b ∈ argRefs) : run4 U (Proc.devRef .tc b) = U (Proc.devRef .tc b) :=
  (Cert.ReferenceIdeal.Keeps.keeps_dense2 (run3 U) b hb).trans (keep3 U b hb)
theorem keep5 (b : Ref sig .tc) (hb : b ∈ argRefs) : run5 U (Proc.devRef .tc b) = U (Proc.devRef .tc b) :=
  (Cert.ReferenceIdeal.Keeps.keeps_egoConv2 (run4 U) b hb).trans (keep4 U b hb)
theorem keep6 (b : Ref sig .tc) (hb : b ∈ argRefs) : run6 U (Proc.devRef .tc b) = U (Proc.devRef .tc b) :=
  (Cert.ReferenceIdeal.Keeps.keeps_dense3 (run5 U) b hb).trans (keep5 U b hb)
theorem keep7 (b : Ref sig .tc) (hb : b ∈ argRefs) : run7 U (Proc.devRef .tc b) = U (Proc.devRef .tc b) :=
  (Cert.ReferenceIdeal.Keeps.keeps_ginSum2 (run6 U) b hb).trans (keep6 U b hb)

/-! ## What stretch k's last buffer holds, as a function of the first contents of the argument buffers -/

abbrev out1 : Cert.KernelIdeal.Chain.Feat Ideal :=
  Cert.KernelIdeal.Chain.egoConv (F := Ideal) (U (Proc.devRef .tc main_arg0)) (U (Proc.devRef .tc main_arg2))
abbrev out2 : Cert.KernelIdeal.Chain.Feat Ideal :=
  Cert.Spec.denseRelu (out1 U) (U (Proc.devRef .tc main_arg3)) (U (Proc.devRef .tc main_arg4))
abbrev out3 : Cert.KernelIdeal.Chain.Feat Ideal :=
  Cert.KernelIdeal.Chain.ginSum (F := Ideal) (out2 U) (U (Proc.devRef .tc main_arg1))
abbrev out4 : Cert.KernelIdeal.Chain.Feat Ideal :=
  Cert.Spec.denseRelu (out3 U) (U (Proc.devRef .tc main_arg5)) (U (Proc.devRef .tc main_arg6))
abbrev out5 : Cert.KernelIdeal.Chain.Feat Ideal :=
  Cert.KernelIdeal.Chain.egoConv (F := Ideal) (out4 U) (U (Proc.devRef .tc main_arg2))
abbrev out6 : Cert.KernelIdeal.Chain.Feat Ideal :=
  Cert.Spec.denseRelu (out5 U) (U (Proc.devRef .tc main_arg7)) (U (Proc.devRef .tc main_arg8))
abbrev out7 : Cert.KernelIdeal.Chain.Feat Ideal :=
  Cert.KernelIdeal.Chain.ginSum (F := Ideal) (out6 U) (U (Proc.devRef .tc main_arg1))

theorem val1 : run1 U (Proc.devRef .tc main_v15) = out1 U := egoConv1_value U

/-- A dense stretch reads the buffer the stretch before it left and two argument buffers, which still hold their
    first contents; at the extended reals its function is the specification's. -/
theorem val2 : run2 U (Proc.devRef .tc main_v20) = out2 U := by
  refine (dense1_value (run1 U)).trans ?_
  rw [dense128_eq, val1 U, keep1 U main_arg3 mem3, keep1 U main_arg4 mem4]

theorem val3 : run3 U (Proc.devRef .tc main_v35) = out3 U := by
  refine (ginSum1_value (run2 U)).trans ?_
  rw [val2 U, keep2 U main_arg1 mem1]

theorem val4 : run4 U (Proc.devRef .tc main_v40) = out4 U := by
  refine (dense2_value (run3 U)).trans ?_
  rw [dense128_eq, val3 U, keep3 U main_arg5 mem5, keep3 U main_arg6 mem6]

theorem val5 : run5 U (Proc.devRef .tc main_v56) = out5 U := by
  refine (egoConv2_value (run4 U)).trans ?_
  rw [val4 U, keep4 U main_arg2 mem2]

theorem val6 : run6 U (Proc.devRef .tc main_v61) = out6 U := by
  refine (dense3_value (run5 U)).trans ?_
  rw [dense128_eq, val5 U, keep5 U main_arg7 mem7, keep5 U main_arg8 mem8]

theorem val7 : run7 U (Proc.devRef .tc main_v76) = out7 U := by
  refine (ginSum2_value (run6 U)).trans ?_
  rw [val6 U, keep6 U main_arg1 mem1]

/-- The last stretch, given its reading as the reference's composed log-softmax stage of the buffers before it. -/
theorem val8
    (hread : after (Stretch.denseLsm (F := Ideal)) (run7 U) (Proc.devRef .tc main_v81)
      = lsm40 (F := Ideal) (run7 U (Proc.devRef .tc main_v76)) (run7 U (Proc.devRef .tc main_arg9))
          (run7 U (Proc.devRef .tc main_arg10))) :
    after (Stretch.denseLsm (F := Ideal)) (run7 U) (Proc.devRef .tc main_v81)
      = Cert.Spec.denseLsm (out7 U) (U (Proc.devRef .tc main_arg9)) (U (Proc.devRef .tc main_arg10)) := by
  refine hread.trans ?_
  rw [lsm40_eq, val7 U, keep7 U main_arg9 mem9, keep7 U main_arg10 mem10]

end Walk

theorem ref_value (U : Valuation τ sig (Elt Ideal)) :
    after (Cert.ReferenceIdeal.ValueP.ops (F := Ideal)) U (Proc.devRef .tc main_v81)
      = Cert.Result.result (U (Proc.devRef .tc main_arg0)) (U (Proc.devRef .tc main_arg1)) (U (Proc.devRef .tc main_arg2))
          (U (Proc.devRef .tc main_arg3)) (U (Proc.devRef .tc main_arg4)) (U (Proc.devRef .tc main_arg5))
          (U (Proc.devRef .tc main_arg6)) (U (Proc.devRef .tc main_arg7)) (U (Proc.devRef .tc main_arg8))
          (U (Proc.devRef .tc main_arg9)) (U (Proc.devRef .tc main_arg10)) := by
  rw [after_ops U]
  unfold Cert.Result.result
  exact val8 U (Cert.ReferenceIdeal.Lsm.read_denseLsm (run7 U))

theorem ref_keeps (U : Valuation τ sig (Elt Ideal)) (b : Ref sig .tc) (hb : b ∈ argRefs) :
    after (Cert.ReferenceIdeal.ValueP.ops (F := Ideal)) U (Proc.devRef .tc b) = U (Proc.devRef .tc b) := by
  exact Cert.ReferenceIdeal.Keeps.keeps_ops U b hb

end Cert.ReferenceIdeal.Walk

end
-- ==== Proof.lean ====
/-
  The certificate of a graph network's forward pass: two ego convolutions (a gather of node rows by one row of an
  edge list, a scatter-add at the other, a scale) and two GIN sums (the features plus such a gather and scatter-add)
  on the host, and four dense stages x @ W + b, three followed by the rectifier and the last by the row-wise
  log-softmax. The kernel program runs the dense stages as row-tiled kernels over ten blocks of 5000 nodes, with the
  operands' float format narrowed before the product; the reference runs them as host matrix products.

  At the extended reals the two are one function of the eleven arguments (Proof/Result.lean): a change of float
  format is the identity, a block's product into a zero accumulator and the host's general product are the same
  contraction sum over the 128 features, the bias reaches every row either way, the lane reductions of the last kernel
  and the host's reductions are the row's maximum and sum, and the reference's second maximum with minus infinity
  changes nothing. No step uses that the inputs are finite.

  The kernel program's run is the generated frame's launch with the result buffer named (Proof/KernelRun.lean), read
  boundary by boundary (Proof/KernelWalk.lean over Proof/KernelStretch.lean and Proof/Region.lean); the reference's
  run is the fold of its host operations (Proof/RefRun.lean), read stretch by stretch (Proof/RefWalk.lean).
-/
import proofs.«111052_j87479893885153_1_alg».proof.Defs
import proofs.«111052_j87479893885153_1_alg».proof.Proof.Gen.Kernel
import proofs.«111052_j87479893885153_1_alg».proof.Proof.Gen.Kernel.Skeleton
import proofs.«111052_j87479893885153_1_alg».proof.Proof.Gen.Kernel.Launch
import proofs.«111052_j87479893885153_1_alg».proof.Proof.Gen.Kernel.Points
import proofs.«111052_j87479893885153_1_alg».proof.Proof.Gen.Kernel.Frame
import proofs.«111052_j87479893885153_1_alg».proof.Proof.Gen.KernelIdeal
import proofs.«111052_j87479893885153_1_alg».proof.Proof.Gen.KernelIdeal.Skeleton
import proofs.«111052_j87479893885153_1_alg».proof.Proof.Gen.KernelIdeal.Launch
import proofs.«111052_j87479893885153_1_alg».proof.Proof.Gen.KernelIdeal.Points
import proofs.«111052_j87479893885153_1_alg».proof.Proof.Gen.KernelIdeal.Frame
import proofs.«111052_j87479893885153_1_alg».proof.Proof.Gen.ReferenceIdeal
import proofs.«111052_j87479893885153_1_alg».proof.Proof.Gen.Pre_finite_inputs
import proofs.«111052_j87479893885153_1_alg».proof.Proof.KernelRun
import proofs.«111052_j87479893885153_1_alg».proof.Proof.KernelWalk
import proofs.«111052_j87479893885153_1_alg».proof.Proof.RefWalk
import Idealize.ShloMosaic.Adequacy
import Idealize.ShloMosaic.Init

noncomputable section

namespace Cert.Proof

open Idealize.ShloMosaic Idealize.ShloMosaic.TcCoe Idealize.SL.Sem Idealize.ShloMosaic.StableHlo

/-- The reference's run: every weakly fair execution of @main terminates, and every buffer ends at the fold of the
    116 host operations over its launch contents. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => ∀ (d : Dev Cert.ReferenceIdeal.nD) (b : Ref Cert.ReferenceIdeal.sig .tc),
        r.2.mem ((d.tc : Thread Cert.ReferenceIdeal.nD Cert.ReferenceIdeal.τ).loc b)
          = after (Cert.ReferenceIdeal.ValueP.ops (F := Ideal)) (launchContents m d) (Proc.devRef .tc b) :=
  run_seq Cert.ReferenceIdeal.ValueP.scopedRefs_eq Cert.ReferenceIdeal.ValueP.scopedSems_eq Cert.ReferenceIdeal.defs
    Cert.ReferenceIdeal.main (fun _ => Cert.ReferenceIdeal.ValueP.ops) Cert.ReferenceIdeal.ValueP.main_eq
    (fun _ => Cert.ReferenceIdeal.ValueP.ops_sub) m ρ

/-- The kernel program at the word level runs and keeps its arguments: the generated frame. -/
theorem frame_kernel : Cert.frame_Kernel := fun m ρ _ => Cert.Kernel.Gen.frame m ρ

/-- The idealized kernel program runs and keeps its arguments: the generated frame. -/
theorem frame_kernelIdeal : Cert.frame_KernelIdeal := fun m ρ _ => Cert.KernelIdeal.Gen.frame m ρ

/-- The idealized reference runs and keeps its arguments: none of its operations writes an argument buffer. -/
theorem frame_referenceIdeal : Cert.frame_ReferenceIdeal := fun m ρ _ =>
  (θ_run Cert.ReferenceIdeal.defs _ _).mono (fun r h c =>
    ⟨(h c Cert.ReferenceIdeal.main_arg0).trans (Cert.ReferenceIdeal.Walk.ref_keeps _ _ (by decide)),
     (h c Cert.ReferenceIdeal.main_arg1).trans (Cert.ReferenceIdeal.Walk.ref_keeps _ _ (by decide)),
     (h c Cert.ReferenceIdeal.main_arg2).trans (Cert.ReferenceIdeal.Walk.ref_keeps _ _ (by decide)),
     (h c Cert.ReferenceIdeal.main_arg3).trans (Cert.ReferenceIdeal.Walk.ref_keeps _ _ (by decide)),
     (h c Cert.ReferenceIdeal.main_arg4).trans (Cert.ReferenceIdeal.Walk.ref_keeps _ _ (by decide)),
     (h c Cert.ReferenceIdeal.main_arg5).trans (Cert.ReferenceIdeal.Walk.ref_keeps _ _ (by decide)),
     (h c Cert.ReferenceIdeal.main_arg6).trans (Cert.ReferenceIdeal.Walk.ref_keeps _ _ (by decide)),
     (h c Cert.ReferenceIdeal.main_arg7).trans (Cert.ReferenceIdeal.Walk.ref_keeps _ _ (by decide)),
     (h c Cert.ReferenceIdeal.main_arg8).trans (Cert.ReferenceIdeal.Walk.ref_keeps _ _ (by decide)),
     (h c Cert.ReferenceIdeal.main_arg9).trans (Cert.ReferenceIdeal.Walk.ref_keeps _ _ (by decide)),
     (h c Cert.ReferenceIdeal.main_arg10).trans (Cert.ReferenceIdeal.Walk.ref_keeps _ _ (by decide))⟩)
    (ref_run m ρ)

/-- The idealization rewrote no operation: nothing to preserve. -/
theorem preserves : Cert.preserves_Kernel_KernelIdeal := trivial

/-- From memories that agree on the arguments both idealized programs end with the result array at the network's
    function of those arguments, and with the arguments unchanged. -/
theorem algebraic : Cert.algebraic_KernelIdeal_ReferenceIdeal := by
  intro m ρ m' ρ' _ hagree
  refine ⟨fun c => Cert.Result.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Walk.value m ρ c), (h c).2⟩)
      (Cert.KernelIdeal.RunV.run_main (F := Ideal) m ρ)
  · refine (θ_run Cert.ReferenceIdeal.defs _ _).mono (fun r h c => ?_) (ref_run m' ρ')
    obtain ⟨e0, e1, e2, e3, e4, e5, e6, e7, e8, e9, e10⟩ := hagree c
    refine ⟨?_,
      (h c Cert.ReferenceIdeal.main_arg0).trans (Cert.ReferenceIdeal.Walk.ref_keeps _ _ (by decide)),
      (h c Cert.ReferenceIdeal.main_arg1).trans (Cert.ReferenceIdeal.Walk.ref_keeps _ _ (by decide)),
      (h c Cert.ReferenceIdeal.main_arg2).trans (Cert.ReferenceIdeal.Walk.ref_keeps _ _ (by decide)),
      (h c Cert.ReferenceIdeal.main_arg3).trans (Cert.ReferenceIdeal.Walk.ref_keeps _ _ (by decide)),
      (h c Cert.ReferenceIdeal.main_arg4).trans (Cert.ReferenceIdeal.Walk.ref_keeps _ _ (by decide)),
      (h c Cert.ReferenceIdeal.main_arg5).trans (Cert.ReferenceIdeal.Walk.ref_keeps _ _ (by decide)),
      (h c Cert.ReferenceIdeal.main_arg6).trans (Cert.ReferenceIdeal.Walk.ref_keeps _ _ (by decide)),
      (h c Cert.ReferenceIdeal.main_arg7).trans (Cert.ReferenceIdeal.Walk.ref_keeps _ _ (by decide)),
      (h c Cert.ReferenceIdeal.main_arg8).trans (Cert.ReferenceIdeal.Walk.ref_keeps _ _ (by decide)),
      (h c Cert.ReferenceIdeal.main_arg9).trans (Cert.ReferenceIdeal.Walk.ref_keeps _ _ (by decide)),
      (h c Cert.ReferenceIdeal.main_arg10).trans (Cert.ReferenceIdeal.Walk.ref_keeps _ _ (by decide))⟩
    refine (h c Cert.ReferenceIdeal.main_v81).trans ((Cert.ReferenceIdeal.Walk.ref_value (launchContents m' c)).trans ?_)
    show Cert.Result.result
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10)) = _
    rw [e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
